-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024 : Shape := ⟨2, ![4, 1024]⟩
abbrev S4x1024x32000 : Shape := ⟨3, ![4, 1024, 32000]⟩
abbrev S32000 : Shape := ⟨1, ![32000]⟩
abbrev S_ : Shape := ⟨0, ![]⟩

class Facts : Prop where
  bcast_S_S4x1024x32000 : S_.BroadcastsInDim S4x1024x32000 (![] : Fin 0 → Fin S4x1024x32000.rank)
  reducesTo_S4x1024x32000_S_d0_1_2 : S4x1024x32000.ReducesTo [0, 1, 2] S_
  h_S_ : 0 < S_.numel
  bcast_S_S32000 : S_.BroadcastsInDim S32000 (![] : Fin 0 → Fin S32000.rank)
  reducesTo_S32000_S_d0 : S32000.ReducesTo [0] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg2 : FVec F S32000 .f32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S32000 .f32 := broadcastInDim S32000 ![] bcast_S_S32000 main_cst_6
  let main_v18 : IVec S32000 1 := cmpf .oge main_arg2 main_v17
  let main_c_7 : IVec S_ 1 := constantI S_ 1 1#1
  let main_v19 : IVec S_ 1 := (fun x v => Host.reduce IntOp.andi x v reducesTo_S32000_S_d0 h_S_) main_v18 main_c_7
  let main_v20 : IVec S_ 1 := andi main_v16 main_v19
  let main_cst_8 : FVec F S_ .f32 := constant S_ .f32 0x00000000#32
  let main_v21 : FVec F S_ .f32 := (fun x v => Host.reduceAdd x v reducesTo_S32000_S_d0 h_S_) main_arg2 main_cst_8
  let main_cst_9 : FVec F S_ .f32 := constant S_ .f32 0x00000000#32
  let main_v22 : IVec S_ 1 := cmpf .une main_v21 main_cst_9
  let main_v23 : IVec S_ 1 := andi main_v20 main_v22
  main_v23

def fn {F : FTy → Type} [FloatOps F] (main_arg0 : IVec S4x1024 32) (main_arg1 : FVec F S4x1024x32000 .f32) (main_arg2 : FVec F S32000 .f32) : IVec S_ 1 :=
  let main_v0 : FVec F S4x1024x32000 .f32 := Host.absf main_arg1
  let main_cst : FVec F S_ .f32 := constant S_ .f32 0x7F800000#32
  let main_v1 : FVec F S4x1024x32000 .f32 := broadcastInDim S4x1024x32000 ![] bcast_S_S4x1024x32000 main_cst
  let main_v2 : IVec S4x1024x32000 1 := cmpf .olt main_v0 main_v1
  let main_c : IVec S_ 1 := constantI S_ 1 1#1
  let main_v3 : IVec S_ 1 := (fun x v => Host.reduce IntOp.andi x v reducesTo_S4x1024x32000_S_d0_1_2 h_S_) main_v2 main_c
  let main_v4 : FVec F S32000 .f32 := Host.absf main_arg2
  let main_cst_0 : FVec F S_ .f32 := constant S_ .f32 0x7F800000#32
  let main_v5 : FVec F S32000 .f32 := broadcastInDim S32000 ![] bcast_S_S32000 main_cst_0
  let main_v6 : IVec S32000 1 := cmpf .olt main_v4 main_v5
  let main_c_1 : IVec S_ 1 := constantI S_ 1 1#1
  let main_v7 : IVec S_ 1 := (fun x v => Host.reduce IntOp.andi x v reducesTo_S32000_S_d0 h_S_) main_v6 main_c_1
  let main_v8 : IVec S_ 1 := andi main_v3 main_v7
  let main_c_2 : IVec S_ 32 := constantI S_ 32 0#32
  let main_v9 : IVec S4x1024 32 := broadcastInDim S4x1024 ![] bcast_S_S4x1024 main_c_2
  let main_v10 : IVec S4x1024 1 := cmpi .sge main_arg0 main_v9
  let main_c_3 : IVec S_ 1 := constantI S_ 1 1#1
  let main_v11 : IVec S_ 1 := (fun x v => Host.reduce IntOp.andi x v reducesTo_S4x1024_S_d0_1 h_S_) main_v10 main_c_3
  let main_v12 : IVec S_ 1 := andi main_v8 main_v11
  let main_c_4 : IVec S_ 32 := constantI S_ 32 32000#32
  let main_v13 : IVec S4x1024 32 := broadcastInDim S4x1024 ![] bcast_S_S4x1024 main_c_4
  let main_v14 : IVec S4x1024 1 := cmpi .slt main_arg0 main_v13
  let main_c_5 : IVec S_ 1 := constantI S_ 1 1#1
  let main_v15 : IVec S_ 1 := (fun x v => Host.reduce IntOp.andi x v reducesTo_S4x1024_S_d0_1 h_S_) main_v14 main_c_5
  fn_part1 (F := F) main_arg2 main_v12 main_v15
-- ==== Kernel.lean ====
abbrev S4x1024 : Shape := ⟨2, ![4, 1024]⟩
abbrev S4x1024x32000 : Shape := ⟨3, ![4, 1024, 32000]⟩
abbrev S32000 : Shape := ⟨1, ![32000]⟩
abbrev S_ : Shape := ⟨0, ![]⟩
abbrev S4x1023 : Shape := ⟨2, ![4, 1023]⟩
abbrev S4x1 : Shape := ⟨2, ![4, 1]⟩
abbrev S4096x32000 : Shape := ⟨2, ![4096, 32000]⟩
abbrev S4096x1 : Shape := ⟨2, ![4096, 1]⟩
abbrev S1x32000 : Shape := ⟨2, ![1, 32000]⟩
abbrev S2048x1280 : Shape := ⟨2, ![2048, 1280]⟩
abbrev S2048x1 : Shape := ⟨2, ![2048, 1]⟩
abbrev S1x1280 : Shape := ⟨2, ![1, 1280]⟩
abbrev S2048x128 : Shape := ⟨2, ![2048, 128]⟩
abbrev S2048 : Shape := ⟨1, ![2048]⟩

abbrev nBuf : Space → Nat
  | .hbm => 83
  | .vmem => 14
  | .smem => 0
  | _ => 0

abbrev bufTy : (tb : Table) → Fin (tcTables nBuf tb) → BufTy
  | .hbm, ⟨0, _⟩ => ⟨S4x1024, .i32⟩
  | .hbm, ⟨1, _⟩ => ⟨S4x1024x32000, .f32⟩
  | .hbm, ⟨2, _⟩ => ⟨S32000, .f32⟩
  | .hbm, ⟨3, _⟩ => ⟨S_, .f32⟩
  | .hbm, ⟨4, _⟩ => ⟨S_, .f32⟩
  | .hbm, ⟨5, _⟩ => ⟨S32000, .f32⟩
  | .hbm, ⟨6, _⟩ => ⟨S32000, .f32⟩
  | .hbm, ⟨7, _⟩ => ⟨S_, .f32⟩
  | .hbm, ⟨8, _⟩ => ⟨S32000, .f32⟩
  | .hbm, ⟨9, _⟩ => ⟨S32000, .i1⟩
  | .hbm, ⟨10, _⟩ => ⟨S32000, .i1⟩
  | .hbm, ⟨11, _⟩ => ⟨S32000, .i1⟩
  | .hbm, ⟨12, _⟩ => ⟨S32000, .f32⟩
  | .hbm, ⟨13, _⟩ => ⟨S32000, .f32⟩
  | .hbm, ⟨14, _⟩ => ⟨S_, .f32⟩
  | .hbm, ⟨15, _⟩ => ⟨S32000, .f32⟩
  | .hbm, ⟨16, _⟩ => ⟨S32000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32000, .f32⟩
  | .hbm, ⟨21, _⟩ => ⟨S32000, .f32⟩
  | .hbm, ⟨22, _⟩ => ⟨S_, .f32⟩
  | .hbm, ⟨23, _⟩ => ⟨S32000, .f32⟩
  | .hbm, ⟨24, _⟩ => ⟨S32000, .f32⟩
  | .hbm, ⟨25, _⟩ => ⟨S_, .f32⟩
  | .hbm, ⟨26, _⟩ => ⟨S32000, .f32⟩
  | .hbm, ⟨27, _⟩ => ⟨S32000, .i1⟩
  | .hbm, ⟨28, _⟩ => ⟨S32000, .i1⟩
  | .hbm, ⟨29, _⟩ => ⟨S32000, .i1⟩
  | .hbm, ⟨30, _⟩ => ⟨S32000, .f32⟩
  | .hbm, ⟨31, _⟩ => ⟨S32000, .f32⟩
  | .hbm, ⟨32, _⟩ => ⟨S_, .f32⟩
  | .hbm, ⟨33, _⟩ => ⟨S32000, .f32⟩
  | .hbm, ⟨34, _⟩ => ⟨S32000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32000, .f32⟩
  | .hbm, ⟨41, _⟩ => ⟨S32000, .f32⟩
  | .hbm, ⟨42, _⟩ => ⟨S_, .f32⟩
  | .hbm, ⟨43, _⟩ => ⟨S32000, .f32⟩
  | .hbm, ⟨44, _⟩ => ⟨S32000, .f32⟩
  | .hbm, ⟨45, _⟩ => ⟨S32000, .f32⟩
  | .hbm, ⟨46, _⟩ => ⟨S_, .f32⟩
  | .hbm, ⟨47, _⟩ => ⟨S32000, .f32⟩
  | .hbm, ⟨48, _⟩ => ⟨S32000, .i1⟩
  | .hbm, ⟨49, _⟩ => ⟨S32000, .i1⟩
  | .hbm, ⟨50, _⟩ => ⟨S32000, .i1⟩
  | .hbm, ⟨51, _⟩ => ⟨S32000, .f32⟩
  | .hbm, ⟨52, _⟩ => ⟨S32000, .f32⟩
  | .hbm, ⟨53, _⟩ => ⟨S_, .f32⟩
  | .hbm, ⟨54, _⟩ => ⟨S32000, .f32⟩
  | .hbm, ⟨55, _⟩ => ⟨S32000, .f32⟩
  | .hbm, ⟨56, _⟩ => ⟨S32000, .f32⟩
  | .hbm, ⟨57, _⟩ => ⟨S32000, .f32⟩
  | .hbm, ⟨58, _⟩ => ⟨S_, .f32⟩
  | .hbm, ⟨59, _⟩ => ⟨S32000, .f32⟩
  | .hbm, ⟨60, _⟩ => ⟨S32000, .f32⟩
  | .hbm, ⟨61, _⟩ => ⟨S32000, .f32⟩
  | .hbm, ⟨62, _⟩ => ⟨S4x1023, .i32⟩
  | .hbm, ⟨63, _⟩ => ⟨S_, .i32⟩
  | .hbm, ⟨64, _⟩ => ⟨S4x1023, .i32⟩
  | .hbm, ⟨65, _⟩ => ⟨S4x1023, .i1⟩
  | .hbm, ⟨66, _⟩ => ⟨S4x1023, .f32⟩
  | .hbm, ⟨67, _⟩ => ⟨S_, .i32⟩
  | .hbm, ⟨68, _⟩ => ⟨S4x1, .i32⟩
  | .hbm, ⟨69, _⟩ => ⟨S4x1024, .i32⟩
  | .hbm, ⟨70, _⟩ => ⟨S_, .f32⟩
  | .hbm, ⟨71, _⟩ => ⟨S4x1, .f32⟩
  | .hbm, ⟨72, _⟩ => ⟨S4x1024, .f32⟩
  | .hbm, ⟨73, _⟩ => ⟨S4096x32000, .f32⟩
  | .hbm, ⟨74, _⟩ => ⟨S4096x1, .i32⟩
  | .hbm, ⟨75, _⟩ => ⟨S4096x1, .f32⟩
  | .hbm, ⟨76, _⟩ => ⟨S1x32000, .f32⟩
  | .hbm, ⟨77, _⟩ => ⟨S1x32000, .f32⟩
  | .hbm, ⟨78, _⟩ => ⟨S4096x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S2048x1280, .f32⟩
  | .local _ .vmem, ⟨1, _⟩ => ⟨S2048x1280, .f32⟩
  | .local _ .vmem, ⟨2, _⟩ => ⟨S2048x1, .i32⟩
  | .local _ .vmem, ⟨3, _⟩ => ⟨S2048x1, .i32⟩
  | .local _ .vmem, ⟨4, _⟩ => ⟨S2048x1, .f32⟩
  | .local _ .vmem, ⟨5, _⟩ => ⟨S2048x1, .f32⟩
  | .local _ .vmem, ⟨6, _⟩ => ⟨S1x1280, .f32⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S2048x1, .f32⟩
  | .local _ .vmem, ⟨11, _⟩ => ⟨S2048x1, .f32⟩
  | .local _ .vmem, ⟨12, _⟩ => ⟨S2048x128, .f32⟩
  | .local _ .vmem, ⟨13, _⟩ => ⟨S2048x128, .f32⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v146 : BitVec 1 := Scalar.cmpi .eq arg1 c24_i32
  let v147 : BitVec 32 := Scalar.extui v146
  let c0_i32_89 : BitVec 32 := 0#32
  let v148 : BitVec 1 := Scalar.cmpi .ne v147 c0_i32_89
  v148

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S32000_S_d0 : S32000.ReducesTo [0] S_
  h_S_ : 0 < S_.numel
  bcast_S_S32000 : S_.BroadcastsInDim S32000 (![] : Fin 0 → Fin S32000.rank)
  slices_S4x1024_S4x1023_0_1 : S4x1024.Slices ![0, 1] S4x1023
  bcast_S_S4x1023 : S_.BroadcastsInDim S4x1023 (![] : Fin 0 → Fin S4x1023.rank)
  bcast_S_S4x1 : S_.BroadcastsInDim S4x1 (![] : Fin 0 → Fin S4x1.rank)
  concatenates_S4x1023_S4x1_S4x1024_d1 : Shape.Concatenates [S4x1023, S4x1] S4x1024 1
  shapeCasts_S4x1024x32000_S4096x32000 : S4x1024x32000.ShapeCasts S4096x32000
  shapeCasts_S4x1024_S4096x1 : S4x1024.ShapeCasts S4096x1
  shapeCasts_S32000_S1x32000 : S32000.ShapeCasts S1x32000
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  iota_S2048x1280_d1_w32 : S2048x1280.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1280 : S2048x1.Broadcasts S2048x1280
  broadcasts_S1x1280_S2048x1280 : S1x1280.Broadcasts S2048x1280
  slices_S2048x1280_o0_0_S2048x128 : S2048x1280.Slices ![0, 0] S2048x128
  slices_S2048x1280_o0_128_S2048x128 : S2048x1280.Slices ![0, 128] S2048x128
  slices_S2048x1280_o0_256_S2048x128 : S2048x1280.Slices ![0, 256] S2048x128
  slices_S2048x1280_o0_384_S2048x128 : S2048x1280.Slices ![0, 384] S2048x128
  slices_S2048x1280_o0_512_S2048x128 : S2048x1280.Slices ![0, 512] S2048x128
  slices_S2048x1280_o0_640_S2048x128 : S2048x1280.Slices ![0, 640] S2048x128
  slices_S2048x1280_o0_768_S2048x128 : S2048x1280.Slices ![0, 768] S2048x128
  slices_S2048x1280_o0_896_S2048x128 : S2048x1280.Slices ![0, 896] S2048x128
  slices_S2048x1280_o0_1024_S2048x128 : S2048x1280.Slices ![0, 1024] S2048x128
  slices_S2048x1280_o0_1152_S2048x128 : S2048x1280.Slices ![0, 1152] S2048x128
  reduces_S2048x128_S2048 : S2048x128.Reduces [1] S2048
  shapeCasts_S2048_S2048x1 : S2048.ShapeCasts S2048x1
  reducesTo_S4096x1_S_d0_1 : S4096x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1280.size a ≤ S4096x32000.size a
  hwx0_0 : ∀ i : grid0.Coords, EltTy.bits .f32 = 32 ∨ (Rect.block (s := S4096x32000) S2048x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S4096x1.size a
  hwx0_1 : ∀ i : grid0.Coords, EltTy.bits .i32 = 32 ∨ (Rect.block (s := S4096x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1280.size a ≤ S1x32000.size a
  hwx0_3 : ∀ i : grid0.Coords, EltTy.bits .f32 = 32 ∨ (Rect.block (s := S1x32000) S1x1280.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1280.size a ≤ S1x32000.size a
  hwx0_4 : ∀ i : grid0.Coords, EltTy.bits .f32 = 32 ∨ (Rect.block (s := S1x32000) S1x1280.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)

variable [Facts₀]

abbrev win0_0 : Pipeline.Window sig grid0 :=
  Pipeline.Window.ofSpec (Memref.whole main_v53) S2048x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1x1280.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x1280.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x1024 : Shape := ⟨2, ![4, 1024]⟩
abbrev S4x1024x32000 : Shape := ⟨3, ![4, 1024, 32000]⟩
abbrev S32000 : Shape := ⟨1, ![32000]⟩
abbrev S_ : Shape := ⟨0, ![]⟩
abbrev S4x1023 : Shape := ⟨2, ![4, 1023]⟩
abbrev S4x1023x1 : Shape := ⟨3, ![4, 1023, 1]⟩
abbrev S1x1x32000 : Shape := ⟨3, ![1, 1, 32000]⟩
abbrev S4x1023x32000 : Shape := ⟨3, ![4, 1023, 32000]⟩

abbrev nBuf : Space → Nat
  | .hbm => 48
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S4x1024x32000, .f32⟩
  | .hbm, ⟨2, _⟩ => ⟨S32000, .f32⟩
  | .hbm, ⟨3, _⟩ => ⟨S_, .f32⟩
  | .hbm, ⟨4, _⟩ => ⟨S_, .f32⟩
  | .hbm, ⟨5, _⟩ => ⟨S32000, .f32⟩
  | .hbm, ⟨6, _⟩ => ⟨S32000, .f32⟩
  | .hbm, ⟨7, _⟩ => ⟨S4x1023, .i32⟩
  | .hbm, ⟨8, _⟩ => ⟨S4x1023x1, .i32⟩
  | .hbm, ⟨9, _⟩ => ⟨S1x1x32000, .i32⟩
  | .hbm, ⟨10, _⟩ => ⟨S4x1023x32000, .i32⟩
  | .hbm, ⟨11, _⟩ => ⟨S4x1023x32000, .i32⟩
  | .hbm, ⟨12, _⟩ => ⟨S4x1023x32000, .i1⟩
  | .hbm, ⟨13, _⟩ => ⟨S4x1023x32000, .f32⟩
  | .hbm, ⟨14, _⟩ => ⟨S_, .f32⟩
  | .hbm, ⟨15, _⟩ => ⟨S4x1023x32000, .f32⟩
  | .hbm, ⟨16, _⟩ => ⟨S4x1023x32000, .f32⟩
  | .hbm, ⟨17, _⟩ => ⟨S_, .f32⟩
  | .hbm, ⟨18, _⟩ => ⟨S32000, .f32⟩
  | .hbm, ⟨19, _⟩ => ⟨S32000, .f32⟩
  | .hbm, ⟨20, _⟩ => ⟨S1x1x32000, .f32⟩
  | .hbm, ⟨21, _⟩ => ⟨S4x1023x32000, .f32⟩
  | .hbm, ⟨22, _⟩ => ⟨S4x1023x32000, .f32⟩
  | .hbm, ⟨23, _⟩ => ⟨S4x1023x32000, .f32⟩
  | .hbm, ⟨24, _⟩ => ⟨S_, .f32⟩
  | .hbm, ⟨25, _⟩ => ⟨S4x1023x32000, .f32⟩
  | .hbm, ⟨26, _⟩ => ⟨S4x1023x32000, .i1⟩
  | .hbm, ⟨27, _⟩ => ⟨S4x1023x32000, .i1⟩
  | .hbm, ⟨28, _⟩ => ⟨S4x1023x32000, .i1⟩
  | .hbm, ⟨29, _⟩ => ⟨S4x1023x32000, .f32⟩
  | .hbm, ⟨30, _⟩ => ⟨S4x1023x32000, .f32⟩
  | .hbm, ⟨31, _⟩ => ⟨S_, .f32⟩
  | .hbm, ⟨32, _⟩ => ⟨S4x1023x32000, .f32⟩
  | .hbm, ⟨33, _⟩ => ⟨S4x1023x32000, .f32⟩
  | .hbm, ⟨34, _⟩ => ⟨S4x1023x32000, .f32⟩
  | .hbm, ⟨35, _⟩ => ⟨S4x1023x32000, .f32⟩
  | .hbm, ⟨36, _⟩ => ⟨S4x1023x32000, .f32⟩
  | .hbm, ⟨37, _⟩ => ⟨S_, .f32⟩
  | .hbm, ⟨38, _⟩ => ⟨S4x1023, .f32⟩
  | .hbm, ⟨39, _⟩ => ⟨S_, .i32⟩
  | .hbm, ⟨40, _⟩ => ⟨S4x1023, .i32⟩
  | .hbm, ⟨41, _⟩ => ⟨S4x1023, .i1⟩
  | .hbm, ⟨42, _⟩ => ⟨S4x1023, .f32⟩
  | .hbm, ⟨43, _⟩ => ⟨S4x1023, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  reducesTo_S32000_S_d0 : S32000.ReducesTo [0] S_
  h_S_ : 0 < S_.numel
  bcast_S_S32000 : S_.BroadcastsInDim S32000 (![] : Fin 0 → Fin S32000.rank)
  slices_S4x1024_S4x1023_0_1 : S4x1024.Slices ![0, 1] S4x1023
  bcast_S4x1023_S4x1023x1_0_1 : S4x1023.BroadcastsInDim S4x1023x1 (![0, 1] : Fin 2 → Fin S4x1023x1.rank)
  bcast_S4x1023x1_S4x1023x32000_0_1_2 : S4x1023x1.BroadcastsInDim S4x1023x32000 (![0, 1, 2] : Fin 3 → Fin S4x1023x32000.rank)
  bcast_S1x1x32000_S4x1023x32000_0_1_2 : S1x1x32000.BroadcastsInDim S4x1023x32000 (![0, 1, 2] : Fin 3 → Fin S4x1023x32000.rank)
  bcast_S_S4x1023x32000 : S_.BroadcastsInDim S4x1023x32000 (![] : Fin 0 → Fin S4x1023x32000.rank)
  bcast_S32000_S1x1x32000_2 : S32000.BroadcastsInDim S1x1x32000 (![2] : Fin 1 → Fin S1x1x32000.rank)
  slices_S4x1024x32000_S4x1023x32000_0_0_0 : S4x1024x32000.Slices ![0, 0, 0] S4x1023x32000
  reducesTo_S4x1023x32000_S4x1023_d2 : S4x1023x32000.ReducesTo [2] S4x1023
  bcast_S_S4x1023 : S_.BroadcastsInDim S4x1023 (![] : Fin 0 → Fin S4x1023.rank)
  reducesTo_S4x1023_S_d0_1 : S4x1023.ReducesTo [0, 1] S_

variable [Facts₀]

class Facts : Prop extends Facts₀ where

variable [Facts]
-- ==== Proof.KLSpec.lean ====
import Idealize.ShloMosaic.PureOps.Ideal
import Idealize.ShloMosaic.Lib.ValueIdx

/-!
# Label-smoothed KL divergence against a unigram prior: the two forms, as plain sums

Tokens `v < 32000`; a histogram `h` normalised to `u v = h v / ∑ h`; for a row with label `l` the smoothed
target is `q v = c·[v = l] + e·u v` (the two weights are the extended reals their f32 words denote), and the
row's divergence from probabilities `p` is `∑ v, (xlx (q v) - q v * log (p v))` with `xlx x = x log x` (zero at zero).

Summed over the vocabulary this collapses: the entropy-like part depends on the label alone (a table `lt` over
the vocabulary), and the cross term is `c · log p_l + e · ∑ v, log (p v) · u v`. The second form below is that
collapse, row by row, as a tiled scan over the vocabulary computes it.
-/

noncomputable section

open scoped BigOperators

namespace KL

open Idealize.ShloMosaic Idealize.ShloMosaic.ValueIdx

abbrev SA0 : Shape := ⟨2, ![4, 1024]⟩
abbrev SA1 : Shape := ⟨3, ![4, 1024, 32000]⟩
abbrev SA2 : Shape := ⟨1, ![32000]⟩

/-- The smoothing weight `e` (the f32 nearest 0.1), the complementary weight `c9` (the f32 nearest 0.9) and the
    number of scored rows, 4·1023 = 4092, as extended reals. -/
def e : EReal := Ideal.ofBits .f32 0x3DCCCCCD#32
def c9 : EReal := Ideal.ofBits .f32 0x3F666666#32
def n4092 : EReal := Ideal.ofBits .f32 0x457FC000#32

/-- `x log x`, zero at zero. -/
def xlx (x : EReal) : EReal := if x = 0 then 0 else x * Ideal.log x

/-- The histogram's total and the unigram distribution. -/
def tot (A2 : SA2.Idx → EReal) : EReal := ∑ j : SA2.Idx, A2 j
def u (A2 : SA2.Idx → EReal) (v : Fin 32000) : EReal := Ideal.div (A2 (ix1 v)) (tot A2)

/-- The log-probability of token `v` at position `(b, s)`. -/
def L (A1 : SA1.Idx → EReal) (b : Fin 4) (s : Fin 1024) (v : Fin 32000) : EReal := Ideal.log (A1 (ix3 b s v))

/-- The label of position `(b, s)`, `s < 1023`: the next token. -/
def lab (A0 : SA0.Idx → BitVec 32) (b : Fin 4) (s : Fin 1023) : BitVec 32 := A0 (ix2 b s.succ)

/-- The row mask: label 0 is padding. -/
def msk (l : BitVec 32) : EReal := if l = 0#32 then 0 else 1

/-! ## First form: the divergence summed over the vocabulary -/

/-- The smoothed target. -/
def q (l : BitVec 32) (uu : Fin 32000 → EReal) (v : Fin 32000) : EReal :=
  c9 * (if l = BitVec.ofNat 32 v.val then 1 else 0) + e * uu v

def rowR (l : BitVec 32) (uu Lr : Fin 32000 → EReal) : EReal := ∑ v : Fin 32000, (xlx (q l uu v) - q l uu v * Lr v)

def refSum (A0 : SA0.Idx → BitVec 32) (A1 : SA1.Idx → EReal) (A2 : SA2.Idx → EReal) : EReal :=
  ∑ b : Fin 4, ∑ s : Fin 1023, rowR (lab A0 b s) (u A2) (L A1 b s.castSucc) * msk (lab A0 b s)

def refRes (A0 : SA0.Idx → BitVec 32) (A1 : SA1.Idx → EReal) (A2 : SA2.Idx → EReal) : EReal :=
  Ideal.div (refSum A0 A1 A2) n4092

/-! ## Second form: the collapse -/

/-- The prior's `∑ x log x`. -/
def Hu (uu : Fin 32000 → EReal) : EReal := ∑ v : Fin 32000, xlx (uu v)

/-- The label table: `∑ v, xlx (q v)` for a row labelled `v`, in closed form. -/
def lt (uu : Fin 32000 → EReal) (v : Fin 32000) : EReal :=
  (xlx (c9 + e * uu v) + (e * Ideal.log e) * (1 - uu v)) + e * (Hu uu - xlx (uu v))

/-- The label-selected part and the prior-weighted part of one row. -/
def comb (l : BitVec 32) (uu Lr : Fin 32000 → EReal) : EReal :=
  ∑ v : Fin 32000, if l = BitVec.ofNat 32 v.val then lt uu v - c9 * Lr v else 0
def dot (uu Lr : Fin 32000 → EReal) : EReal := ∑ v : Fin 32000, Lr v * uu v
def rowK (l : BitVec 32) (uu Lr : Fin 32000 → EReal) : EReal := comb l uu Lr - e * dot uu Lr

/-- Row `1024 b + s` of the [4096, 1] array of masked row losses; the last position of a sequence has no label. -/
def kerRow (A0 : SA0.Idx → BitVec 32) (A1 : SA1.Idx → EReal) (A2 : SA2.Idx → EReal) (b : Fin 4) (s : Fin 1024) : EReal :=
  if h : s.val < 1023 then
    (if lab A0 b ⟨s.val, h⟩ = 0#32 then 0 else rowK (lab A0 b ⟨s.val, h⟩) (u A2) (L A1 b s))
  else 0

def kerSum (A0 : SA0.Idx → BitVec 32) (A1 : SA1.Idx → EReal) (A2 : SA2.Idx → EReal) : EReal :=
  ∑ b : Fin 4, ∑ s : Fin 1024, kerRow A0 A1 A2 b s

def kerRes (A0 : SA0.Idx → BitVec 32) (A1 : SA1.Idx → EReal) (A2 : SA2.Idx → EReal) : EReal :=
  Ideal.div (kerSum A0 A1 A2) n4092

/-! ## The tiled scan of one row

A row's vocabulary is visited in 25 tiles of 1280 tokens, each tile in 10 chunks of 128 lanes; two lane-wide
accumulators collect the chunks and are summed across lanes at the end. `tok j ch ln` is the token a lane holds. -/

def tok (j : Fin 25) (ch : Fin 10) (ln : Fin 128) : Fin 32000 :=
  ⟨1280 * j.val + (128 * ch.val + ln.val), by have := j.isLt; have := ch.isLt; have := ln.isLt; omega⟩

/-- One row as the scan computes it: `lbl` and `mk` the row's label word and mask value, `Lr`, `uu`, `ltb` the
    row's log-probabilities, the prior and the label table. The label test is the scan's own: the tile's base
    `1280 j` plus the position inside the tile, as 32-bit words. -/
def scanRow (lbl : BitVec 32) (mk : EReal) (Lr uu ltb : Fin 32000 → EReal) : EReal :=
  if mk = 0 then 0 else
    (∑ ln : Fin 128, ∑ j : Fin 25, ∑ ch : Fin 10,
        (if BitVec.ofNat 32 j.val * 1280#32 + BitVec.ofNat 32 (128 * ch.val + ln.val) = lbl
          then ltb (tok j ch ln) - c9 * Lr (tok j ch ln) else 0))
      - e * (∑ ln : Fin 128, ∑ j : Fin 25, ∑ ch : Fin 10, Lr (tok j ch ln) * uu (tok j ch ln))

end KL

end
-- ==== Proof.KBlocks.lean ====
import proofs.«427229_j59923383714465_3_alg».proof.Proof.Gen.KernelIdeal.Frame
import proofs.«427229_j59923383714465_3_alg».proof.Proof.KLSpec

/-! The scan's grid and blocks by name: point `25 i + j` visits row tile `i` (2048 rows) and vocabulary tile `j`
    (1280 tokens); a tile's column `128 ch + ln` is lane `ln` of chunk `ch`; row `2048 i + y` of the flattened
    [4096, 32000] probabilities is position `(b, s)` with `1024 b + s = 2048 i + y`. -/

noncomputable section

namespace Cert.KernelIdeal.KBlocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The five input blocks at a point, at their literal types: probabilities, labels, row mask, prior, label table. -/
abbrev xblk (c : Dev nD) (t : Fin cfg0.N) : Vec F S2048x1280 .f32 := iblk m c 0 t
abbrev lblk (c : Dev nD) (t : Fin cfg0.N) : Vec F S2048x1 .i32 := iblk m c 1 t
abbrev mblk (c : Dev nD) (t : Fin cfg0.N) : Vec F S2048x1 .f32 := iblk m c 2 t
abbrev ublk (c : Dev nD) (t : Fin cfg0.N) : Vec F S1x1280 .f32 := iblk m c 3 t
abbrev tblk (c : Dev nD) (t : Fin cfg0.N) : Vec F S1x1280 .f32 := iblk m c 4 t

/-- The three argument arrays on a core. -/
abbrev a0 (c : Dev nD) : IVec S4x1024 32 := m ((c.tc : Thread nD τ).loc main_arg0)
abbrev a1 (c : Dev nD) : FVec F S4x1024x32000 .f32 := m ((c.tc : Thread nD τ).loc main_arg1)
abbrev a2 (c : Dev nD) : FVec F S32000 .f32 := m ((c.tc : Thread nD τ).loc main_arg2)

/-- Grid point `(i, j)`. -/
def pt (i : Fin 2) (j : Fin 25) : Fin cfg0.N := ⟨25 * i.val + j.val, by have : cfg0.N = 50 := N_0; have := i.isLt; have := j.isLt; omega⟩

theorem pt_val (i : Fin 2) (j : Fin 25) : (pt i j).val = 25 * i.val + j.val := rfl

/-- Column `128 ch + ln` of a vocabulary tile. -/
def col (ch : Fin 10) (ln : Fin 128) : Fin 1280 := ⟨128 * ch.val + ln.val, by have := ch.isLt; have := ln.isLt; omega⟩

/-- Row `2048 i + y` as a position `(b, s)`. -/
def rowB (i : Fin 2) (y : Fin 2048) : Fin 4 := ⟨(2048 * i.val + y.val) / 1024, by have := i.isLt; have := y.isLt; omega⟩
def rowS (i : Fin 2) (y : Fin 2048) : Fin 1024 := ⟨(2048 * i.val + y.val) % 1024, Nat.mod_lt _ (by decide)⟩

end Cert.KernelIdeal.KBlocks

end
-- ==== Proof.KSteps.lean ====
import proofs.«427229_j59923383714465_3_alg».proof.Proof.KBlocks

/-! One grid point's update of the two lane-wide accumulators: ten chunk additions each, written as the nest of the
    ten stores' values (each store adds one 128-lane chunk of the tile's terms to what the store before left). -/

noncomputable section

namespace Cert.KernelIdeal.KSteps

open Cert.KernelIdeal Cert.KernelIdeal.Gen Idealize.ShloMosaic

variable {F : FTy → Type} [FloatOps F]

/-- The prior-weighted accumulator after a point: `acc` plus the ten chunks of `log p · u` over the tile. -/
def dotStep (x0 : Vec F S2048x1280 .f32) (x3 : Vec F S1x1280 .f32) (acc : Vec F S2048x128 .f32) : FVec F S2048x128 .f32 :=
  k0_pay1 (k0_pay7 x0 x3)
    (k0_pay27 (k0_pay7 x0 x3)
      (k0_pay25 (k0_pay7 x0 x3)
        (k0_pay23
          (k0_pay22 (k0_pay7 x0 x3)
            (k0_pay20 (k0_pay7 x0 x3)
              (k0_pay18 (k0_pay7 x0 x3)
                (k0_pay16 (k0_pay7 x0 x3)
                  (k0_pay14 (k0_pay7 x0 x3) (k0_pay12 (k0_pay7 x0 x3) (k0_pay9 x0 x3 acc))))))))))

/-- The label-selected accumulator after a point: `acc` plus the ten chunks of the tile's label-selected terms
    (`x4` the label table's tile, `x1` the rows' labels, `i` the point's coordinates). -/
def combStep (i : grid0.Coords) (x0 : Vec F S2048x1280 .f32) (x4 : Vec F S1x1280 .f32) (x1 : Vec F S2048x1 .i32)
    (acc : Vec F S2048x128 .f32) : FVec F S2048x128 .f32 :=
  k0_pay2 (k0_pay8 i x0 x4 x1)
    (k0_pay28 (k0_pay8 i x0 x4 x1)
      (k0_pay26 (k0_pay8 i x0 x4 x1)
        (k0_pay24 (k0_pay8 i x0 x4 x1)
          (k0_pay21 (k0_pay8 i x0 x4 x1)
            (k0_pay19 (k0_pay8 i x0 x4 x1)
              (k0_pay17 (k0_pay8 i x0 x4 x1)
                (k0_pay15 (k0_pay8 i x0 x4 x1)
                  (k0_pay13 (k0_pay8 i x0 x4 x1) (k0_pay11 (k0_pay10 i x0 x4 x1 acc))))))))))

end Cert.KernelIdeal.KSteps

end
-- ==== Proof.KPieces.lean ====
import proofs.«427229_j59923383714465_3_alg».proof.Proof.KSteps
import Idealize.ShloMosaic.Lib.Pipeline.Value
import Idealize.ShloMosaic.Lib.Tactic

/-! What each of the three control cases leaves in the two accumulators and in the output block: at the first
    vocabulary tile the accumulators restart from zero, at the others they continue from what the point before left,
    and at the last tile the output block is the masked combination of the two updated accumulators. -/

set_option maxRecDepth 16384

noncomputable section

namespace Cert.KernelIdeal.KPieces

open Cert.KernelIdeal Cert.KernelIdeal.Gen Cert.KernelIdeal.KSteps Idealize.ShloMosaic Idealize.ShloMosaic.TcCoe Idealize.SL.Sem

variable {F : FTy → Type} [FloatOps F]

/-- The zero offset of a rank-2 block. -/
theorem hz : (![0, 0] : Fin 2 → Nat) = fun _ => 0 := funext fun a => by fin_cases a <;> rfl

theorem sA0 (c : Dev nD) (i : grid0.Coords) (arg2 : Memref sig .tc .vmem S2048x1280 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .f32) (harg9 : arg9.IsWhole) (hc0 : cond0_0 i) (hc1 : ¬cond0_1 i)
    (x0 : Vec F S2048x1280 .f32) (x1 : Vec F S2048x1 .i32) (x2 : Vec F S2048x1 .f32) (x3 : Vec F S1x1280 .f32) (x4 : Vec F S1x1280 .f32) :
    sout0_A_0 c i arg2 harg2 arg3 harg3 arg4 harg4 arg5 harg5 arg6 harg6 arg7 harg7 arg8 harg8 arg9 harg9 hc0 hc1 x0 x1 x2 x3 x4 = dotStep x0 x3 k0_pay4 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x128) hz]
  simp only [View.readCov_cons_toLoadRect, View.readCov_unit_zero (S := S2048x128) _ hz, View.readAt_eq_ld,
    harg2.read_unread, harg3.read_unread, harg4.read_unread, harg5.read_unread, harg6.read_unread, harg8.read_unread,
    harg9.read_unread, View.ld_unit_zero (S := S2048x1280) hz, View.ld_unit_zero (S := S1x1280) hz,
    View.ld_unit_zero (S := S2048x128) hz, View.ld_unit_zero (S := S2048x1) hz]
  rfl

theorem sA1 (c : Dev nD) (i : grid0.Coords) (arg2 : Memref sig .tc .vmem S2048x1280 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .f32) (harg9 : arg9.IsWhole) (hc0 : cond0_0 i) (hc1 : ¬cond0_1 i)
    (x0 : Vec F S2048x1280 .f32) (x1 : Vec F S2048x1 .i32) (x2 : Vec F S2048x1 .f32) (x3 : Vec F S1x1280 .f32) (x4 : Vec F S1x1280 .f32) :
    sout0_A_1 c i arg2 harg2 arg3 harg3 arg4 harg4 arg5 harg5 arg6 harg6 arg7 harg7 arg8 harg8 arg9 harg9 hc0 hc1 x0 x1 x2 x3 x4 = combStep i x0 x4 x1 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x128) hz]
  simp only [View.readCov_cons_toLoadRect, View.readCov_unit_zero (S := S2048x128) _ hz, View.readAt_eq_ld,
    harg2.read_unread, harg3.read_unread, harg4.read_unread, harg5.read_unread, harg6.read_unread, harg8.read_unread,
    harg9.read_unread, View.ld_unit_zero (S := S2048x1280) hz, View.ld_unit_zero (S := S1x1280) hz,
    View.ld_unit_zero (S := S2048x128) hz, View.ld_unit_zero (S := S2048x1) hz]
  rfl

theorem sB0 (c : Dev nD) (i : grid0.Coords) (arg2 : Memref sig .tc .vmem S2048x1280 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : ¬cond0_1 i)
    (x0 : Vec F S2048x1280 .f32) (x1 : Vec F S2048x1 .i32) (x2 : Vec F S2048x1 .f32) (x3 : Vec F S1x1280 .f32) (x4 : Vec F S1x1280 .f32) (xs0 : Vec F S2048x128 .f32) (xs1 : Vec F S2048x128 .f32) :
    sout0_B_0 c i arg2 harg2 arg3 harg3 arg4 harg4 arg5 harg5 arg6 harg6 arg7 harg7 arg8 harg8 arg9 harg9 hc0 hc1 x0 x1 x2 x3 x4 xs0 xs1 = dotStep x0 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S2048x128) hz]
  simp only [View.readCov_cons_toLoadRect, View.readCov_unit_zero (S := S2048x128) _ hz, View.readAt_eq_ld,
    harg2.read_unread, harg3.read_unread, harg4.read_unread, harg5.read_unread, harg6.read_unread, harg8.read_unread,
    harg9.read_unread, View.ld_unit_zero (S := S2048x1280) hz, View.ld_unit_zero (S := S1x1280) hz,
    View.ld_unit_zero (S := S2048x128) hz, View.ld_unit_zero (S := S2048x1) hz]
  rfl

theorem sB1 (c : Dev nD) (i : grid0.Coords) (arg2 : Memref sig .tc .vmem S2048x1280 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : ¬cond0_1 i)
    (x0 : Vec F S2048x1280 .f32) (x1 : Vec F S2048x1 .i32) (x2 : Vec F S2048x1 .f32) (x3 : Vec F S1x1280 .f32) (x4 : Vec F S1x1280 .f32) (xs0 : Vec F S2048x128 .f32) (xs1 : Vec F S2048x128 .f32) :
    sout0_B_1 c i arg2 harg2 arg3 harg3 arg4 harg4 arg5 harg5 arg6 harg6 arg7 harg7 arg8 harg8 arg9 harg9 hc0 hc1 x0 x1 x2 x3 x4 xs0 xs1 = combStep i x0 x4 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S2048x128) hz]
  simp only [View.readCov_cons_toLoadRect, View.readCov_unit_zero (S := S2048x128) _ hz, View.readAt_eq_ld,
    harg2.read_unread, harg3.read_unread, harg4.read_unread, harg5.read_unread, harg6.read_unread, harg8.read_unread,
    harg9.read_unread, View.ld_unit_zero (S := S2048x1280) hz, View.ld_unit_zero (S := S1x1280) hz,
    View.ld_unit_zero (S := S2048x128) hz, View.ld_unit_zero (S := S2048x1) hz]
  rfl

theorem sC0 (c : Dev nD) (i : grid0.Coords) (arg2 : Memref sig .tc .vmem S2048x1280 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : cond0_1 i)
    (x0 : Vec F S2048x1280 .f32) (x1 : Vec F S2048x1 .i32) (x2 : Vec F S2048x1 .f32) (x3 : Vec F S1x1280 .f32) (x4 : Vec F S1x1280 .f32) (xs0 : Vec F S2048x128 .f32) (xs1 : Vec F S2048x128 .f32) :
    sout0_C_0 c i arg2 harg2 arg3 harg3 arg4 harg4 arg5 harg5 arg6 harg6 arg7 harg7 arg8 harg8 arg9 harg9 hc0 hc1 x0 x1 x2 x3 x4 xs0 xs1 = dotStep x0 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S2048x128) hz]
  simp only [View.readCov_cons_toLoadRect, View.readCov_unit_zero (S := S2048x128) _ hz, View.readAt_eq_ld,
    harg2.read_unread, harg3.read_unread, harg4.read_unread, harg5.read_unread, harg6.read_unread, harg8.read_unread,
    harg9.read_unread, View.ld_unit_zero (S := S2048x1280) hz, View.ld_unit_zero (S := S1x1280) hz,
    View.ld_unit_zero (S := S2048x128) hz, View.ld_unit_zero (S := S2048x1) hz]
  rfl

theorem sC1 (c : Dev nD) (i : grid0.Coords) (arg2 : Memref sig .tc .vmem S2048x1280 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : cond0_1 i)
    (x0 : Vec F S2048x1280 .f32) (x1 : Vec F S2048x1 .i32) (x2 : Vec F S2048x1 .f32) (x3 : Vec F S1x1280 .f32) (x4 : Vec F S1x1280 .f32) (xs0 : Vec F S2048x128 .f32) (xs1 : Vec F S2048x128 .f32) :
    sout0_C_1 c i arg2 harg2 arg3 harg3 arg4 harg4 arg5 harg5 arg6 harg6 arg7 harg7 arg8 harg8 arg9 harg9 hc0 hc1 x0 x1 x2 x3 x4 xs0 xs1 = combStep i x0 x4 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S2048x128) hz]
  simp only [View.readCov_cons_toLoadRect, View.readCov_unit_zero (S := S2048x128) _ hz, View.readAt_eq_ld,
    harg2.read_unread, harg3.read_unread, harg4.read_unread, harg5.read_unread, harg6.read_unread, harg8.read_unread,
    harg9.read_unread, View.ld_unit_zero (S := S2048x1280) hz, View.ld_unit_zero (S := S1x1280) hz,
    View.ld_unit_zero (S := S2048x128) hz, View.ld_unit_zero (S := S2048x1) hz]
  rfl

theorem oC5 (c : Dev nD) (i : grid0.Coords) (arg2 : Memref sig .tc .vmem S2048x1280 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S2048x1 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : cond0_1 i)
    (x0 : Vec F S2048x1280 .f32) (x1 : Vec F S2048x1 .i32) (x2 : Vec F S2048x1 .f32) (x3 : Vec F S1x1280 .f32) (x4 : Vec F S1x1280 .f32) (xs0 : Vec F S2048x128 .f32) (xs1 : Vec F S2048x128 .f32) :
    out0_C_5 c i arg2 harg2 arg3 harg3 arg4 harg4 arg5 harg5 arg6 harg6 arg7 harg7 arg8 harg8 arg9 harg9 hc0 hc1 x0 x1 x2 x3 x4 xs0 xs1 = k0_pay3 (dotStep x0 x3 xs0) (combStep i x0 x4 x1 xs1) x2 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readCov_cons_toLoadRect, View.readCov_unit_zero (S := S2048x128) _ hz, View.readAt_eq_ld,
    harg2.read_unread, harg3.read_unread, harg4.read_unread, harg5.read_unread, harg6.read_unread, harg8.read_unread,
    harg9.read_unread, View.ld_unit_zero (S := S2048x1280) hz, View.ld_unit_zero (S := S1x1280) hz,
    View.ld_unit_zero (S := S2048x128) hz, View.ld_unit_zero (S := S2048x1) hz]
  rfl

end Cert.KernelIdeal.KPieces

end
-- ==== Proof.KStepIdx.lean ====
import proofs.«427229_j59923383714465_3_alg».proof.Proof.KSteps
import Idealize.ShloMosaic.Lib.Pipeline.Value
import Idealize.ShloMosaic.Lib.ValueLayout
import Idealize.ShloMosaic.PureOps.Ideal.Laws

/-! The accumulator updates and the output combination read at a row and a lane, over the extended reals. -/

noncomputable section

open scoped BigOperators

namespace Cert.KernelIdeal.KStepIdx

open Cert.KernelIdeal Cert.KernelIdeal.Gen Cert.KernelIdeal.KBlocks Cert.KernelIdeal.KSteps Idealize.ShloMosaic Idealize.ShloMosaic.TcCoe Idealize.ShloMosaic.ValueIdx

/-- The tile of log-probabilities at a row and a column. -/
theorem pay6_apply (x0 : Vec Ideal S2048x1280 .f32) (y : Fin 2048) (x : Fin 1280) :
    k0_pay6 x0 (ix2 y x) = Ideal.log (x0 (ix2 y x)) := by
  unfold k0_pay6
  rw [shapeCast_self]
  rfl

/-- The tile of `log p · u` at a row and a column. -/
theorem pay7_apply (x0 : Vec Ideal S2048x1280 .f32) (x3 : Vec Ideal S1x1280 .f32) (y : Fin 2048) (x : Fin 1280) :
    k0_pay7 x0 x3 (ix2 y x) = Ideal.log (x0 (ix2 y x)) * x3 (ix2 0 x) := by
  unfold k0_pay7
  rw [shapeCast_self]
  show k0_pay6 x0 (ix2 y x) * broadcastTo S2048x1280 x3 broadcasts_S1x1280_S2048x1280 (ix2 y x) = _
  rw [pay6_apply, broadcastTo_1b_ab_apply]

/-- One chunk added: the accumulator plus the tile's 128 columns from `o`, at a row and a lane. -/
theorem addChunk_apply (o : Nat) (tile : FVec Ideal S2048x1280 .f32) (acc : FVec Ideal S2048x128 .f32)
    (h : S2048x1280.Slices ![0, o] S2048x128) (y : Fin 2048) (ln : Fin 128) (k : Fin 1280) (hk : k.val = o + ln.val) :
    shapeCast S2048x128 (addf acc (extractStridedSlice S2048x128 ![0, o] tile h)) shapeCasts_S2048x128_S2048x128 (ix2 y ln)
      = acc (ix2 y ln) + tile (ix2 y k) := by
  rw [shapeCast_self, addf_apply, slice2_axis1_apply o tile h y ln k hk]

/-- Ten terms added one after another to `a` are `a` plus their sum. -/
theorem sum10 (f : Fin 10 → EReal) (a : EReal) :
    a + f 0 + f 1 + f 2 + f 3 + f 4 + f 5 + f 6 + f 7 + f 8 + f 9 = a + ∑ ch : Fin 10, f ch := by
  simp only [Fin.sum_univ_succ, Fin.sum_univ_zero, add_zero, ← add_assoc]
  rfl

/-- The first chunk of the prior-weighted tile added to the accumulator. -/
theorem pay9_apply (x0 : Vec Ideal S2048x1280 .f32) (x3 : Vec Ideal S1x1280 .f32) (acc : Vec Ideal S2048x128 .f32) (y : Fin 2048) (ln : Fin 128) :
    k0_pay9 x0 x3 acc (ix2 y ln) = acc (ix2 y ln) + k0_pay7 x0 x3 (ix2 y (col 0 ln)) := by
  unfold k0_pay9
  exact addChunk_apply 0 _ _ _ y ln (col 0 ln) (by simp [col])

/-! Each store's value at a row and a lane: what the store before left there plus one chunk's term. -/

theorem pay12_apply (t : FVec Ideal S2048x1280 .f32) (acc : Vec Ideal S2048x128 .f32) (y : Fin 2048) (ln : Fin 128) :
    k0_pay12 t acc (ix2 y ln) = acc (ix2 y ln) + t (ix2 y (col 1 ln)) := by
  unfold k0_pay12
  exact addChunk_apply 128 _ _ _ y ln (col 1 ln) (by simp [col])

theorem pay14_apply (t : FVec Ideal S2048x1280 .f32) (acc : Vec Ideal S2048x128 .f32) (y : Fin 2048) (ln : Fin 128) :
    k0_pay14 t acc (ix2 y ln) = acc (ix2 y ln) + t (ix2 y (col 2 ln)) := by
  unfold k0_pay14
  exact addChunk_apply 256 _ _ _ y ln (col 2 ln) (by simp [col])

theorem pay16_apply (t : FVec Ideal S2048x1280 .f32) (acc : Vec Ideal S2048x128 .f32) (y : Fin 2048) (ln : Fin 128) :
    k0_pay16 t acc (ix2 y ln) = acc (ix2 y ln) + t (ix2 y (col 3 ln)) := by
  unfold k0_pay16
  exact addChunk_apply 384 _ _ _ y ln (col 3 ln) (by simp [col])

theorem pay18_apply (t : FVec Ideal S2048x1280 .f32) (acc : Vec Ideal S2048x128 .f32) (y : Fin 2048) (ln : Fin 128) :
    k0_pay18 t acc (ix2 y ln) = acc (ix2 y ln) + t (ix2 y (col 4 ln)) := by
  unfold k0_pay18
  exact addChunk_apply 512 _ _ _ y ln (col 4 ln) (by simp [col])

theorem pay20_apply (t : FVec Ideal S2048x1280 .f32) (acc : Vec Ideal S2048x128 .f32) (y : Fin 2048) (ln : Fin 128) :
    k0_pay20 t acc (ix2 y ln) = acc (ix2 y ln) + t (ix2 y (col 5 ln)) := by
  unfold k0_pay20
  exact addChunk_apply 640 _ _ _ y ln (col 5 ln) (by simp [col])

theorem pay25_apply (t : FVec Ideal S2048x1280 .f32) (acc : Vec Ideal S2048x128 .f32) (y : Fin 2048) (ln : Fin 128) :
    k0_pay25 t acc (ix2 y ln) = acc (ix2 y ln) + t (ix2 y (col 7 ln)) := by
  unfold k0_pay25
  exact addChunk_apply 896 _ _ _ y ln (col 7 ln) (by simp [col])

theorem pay27_apply (t : FVec Ideal S2048x1280 .f32) (acc : Vec Ideal S2048x128 .f32) (y : Fin 2048) (ln : Fin 128) :
    k0_pay27 t acc (ix2 y ln) = acc (ix2 y ln) + t (ix2 y (col 8 ln)) := by
  unfold k0_pay27
  exact addChunk_apply 1024 _ _ _ y ln (col 8 ln) (by simp [col])

theorem pay1_apply (t : FVec Ideal S2048x1280 .f32) (acc : Vec Ideal S2048x128 .f32) (y : Fin 2048) (ln : Fin 128) :
    k0_pay1 t acc (ix2 y ln) = acc (ix2 y ln) + t (ix2 y (col 9 ln)) := by
  unfold k0_pay1
  exact addChunk_apply 1152 _ _ _ y ln (col 9 ln) (by simp [col])

theorem pay13_apply (t : FVec Ideal S2048x1280 .f32) (acc : Vec Ideal S2048x128 .f32) (y : Fin 2048) (ln : Fin 128) :
    k0_pay13 t acc (ix2 y ln) = acc (ix2 y ln) + t (ix2 y (col 1 ln)) := by
  unfold k0_pay13
  exact addChunk_apply 128 _ _ _ y ln (col 1 ln) (by simp [col])

theorem pay15_apply (t : FVec Ideal S2048x1280 .f32) (acc : Vec Ideal S2048x128 .f32) (y : Fin 2048) (ln : Fin 128) :
    k0_pay15 t acc (ix2 y ln) = acc (ix2 y ln) + t (ix2 y (col 2 ln)) := by
  unfold k0_pay15
  exact addChunk_apply 256 _ _ _ y ln (col 2 ln) (by simp [col])

theorem pay17_apply (t : FVec Ideal S2048x1280 .f32) (acc : Vec Ideal S2048x128 .f32) (y : Fin 2048) (ln : Fin 128) :
    k0_pay17 t acc (ix2 y ln) = acc (ix2 y ln) + t (ix2 y (col 3 ln)) := by
  unfold k0_pay17
  exact addChunk_apply 384 _ _ _ y ln (col 3 ln) (by simp [col])

theorem pay19_apply (t : FVec Ideal S2048x1280 .f32) (acc : Vec Ideal S2048x128 .f32) (y : Fin 2048) (ln : Fin 128) :
    k0_pay19 t acc (ix2 y ln) = acc (ix2 y ln) + t (ix2 y (col 4 ln)) := by
  unfold k0_pay19
  exact addChunk_apply 512 _ _ _ y ln (col 4 ln) (by simp [col])

theorem pay21_apply (t : FVec Ideal S2048x1280 .f32) (acc : Vec Ideal S2048x128 .f32) (y : Fin 2048) (ln : Fin 128) :
    k0_pay21 t acc (ix2 y ln) = acc (ix2 y ln) + t (ix2 y (col 5 ln)) := by
  unfold k0_pay21
  exact addChunk_apply 640 _ _ _ y ln (col 5 ln) (by simp [col])

theorem pay24_apply (t : FVec Ideal S2048x1280 .f32) (acc : Vec Ideal S2048x128 .f32) (y : Fin 2048) (ln : Fin 128) :
    k0_pay24 t acc (ix2 y ln) = acc (ix2 y ln) + t (ix2 y (col 6 ln)) := by
  unfold k0_pay24
  exact addChunk_apply 768 _ _ _ y ln (col 6 ln) (by simp [col])

theorem pay26_apply (t : FVec Ideal S2048x1280 .f32) (acc : Vec Ideal S2048x128 .f32) (y : Fin 2048) (ln : Fin 128) :
    k0_pay26 t acc (ix2 y ln) = acc (ix2 y ln) + t (ix2 y (col 7 ln)) := by
  unfold k0_pay26
  exact addChunk_apply 896 _ _ _ y ln (col 7 ln) (by simp [col])

theorem pay28_apply (t : FVec Ideal S2048x1280 .f32) (acc : Vec Ideal S2048x128 .f32) (y : Fin 2048) (ln : Fin 128) :
    k0_pay28 t acc (ix2 y ln) = acc (ix2 y ln) + t (ix2 y (col 8 ln)) := by
  unfold k0_pay28
  exact addChunk_apply 1024 _ _ _ y ln (col 8 ln) (by simp [col])

theorem pay2_apply (t : FVec Ideal S2048x1280 .f32) (acc : Vec Ideal S2048x128 .f32) (y : Fin 2048) (ln : Fin 128) :
    k0_pay2 t acc (ix2 y ln) = acc (ix2 y ln) + t (ix2 y (col 9 ln)) := by
  unfold k0_pay2
  exact addChunk_apply 1152 _ _ _ y ln (col 9 ln) (by simp [col])

/-- The seventh chunk's addition, whose sum and whose stored copy are two values. -/
theorem pay23_apply (t : FVec Ideal S2048x1280 .f32) (acc : Vec Ideal S2048x128 .f32) (y : Fin 2048) (ln : Fin 128) :
    k0_pay23 (k0_pay22 t acc) (ix2 y ln) = acc (ix2 y ln) + t (ix2 y (col 6 ln)) := by
  unfold k0_pay23 k0_pay22
  exact addChunk_apply 768 _ _ _ y ln (col 6 ln) (by simp [col])

/-- The first chunk of the label-selected tile added to the accumulator. -/
theorem pay11_apply (i : grid0.Coords) (x0 : Vec Ideal S2048x1280 .f32) (x4 : Vec Ideal S1x1280 .f32) (x1 : Vec Ideal S2048x1 .i32)
    (acc : Vec Ideal S2048x128 .f32) (y : Fin 2048) (ln : Fin 128) :
    k0_pay11 (k0_pay10 i x0 x4 x1 acc) (ix2 y ln) = acc (ix2 y ln) + k0_pay8 i x0 x4 x1 (ix2 y (col 0 ln)) := by
  unfold k0_pay11 k0_pay10
  exact addChunk_apply 0 _ _ _ y ln (col 0 ln) (by simp [col])

/-- The prior-weighted accumulator after a point, at a row and a lane: the ten chunks' terms of that lane added. -/
theorem dotStep_apply (x0 : Vec Ideal S2048x1280 .f32) (x3 : Vec Ideal S1x1280 .f32) (acc : Vec Ideal S2048x128 .f32)
    (y : Fin 2048) (ln : Fin 128) :
    dotStep x0 x3 acc (ix2 y ln)
      = acc (ix2 y ln) + ∑ ch : Fin 10, Ideal.log (x0 (ix2 y (col ch ln))) * x3 (ix2 0 (col ch ln)) := by
  unfold dotStep
  rw [pay1_apply, pay27_apply, pay25_apply, pay23_apply, pay20_apply, pay18_apply, pay16_apply, pay14_apply, pay12_apply, pay9_apply]
  simp only [pay7_apply]
  exact sum10 (fun ch => Ideal.log (x0 (ix2 y (col ch ln))) * x3 (ix2 0 (col ch ln))) (acc (ix2 y ln))

/-- A select on "two words are equal" is the `if` on their equality. -/
theorem select_cmpi_eq {α : Type} (a b : BitVec 32) (A B : α) :
    Scalar.select (IntOp.cmpi .eq a b) A B = if a = b then A else B := by
  unfold Scalar.select IntOp.cmpi
  by_cases h : a = b
  · subst h; simp
  · have hb : (a == b) = false := by simpa using h
    simp [hb, h]

/-- A column of row values laid across the tile's columns reads the row's value. -/
theorem bcast_col_apply {α : Type} (v : S2048x1.Idx → α) (y : Fin 2048) (x : Fin 1280) :
    broadcastTo S2048x1280 v broadcasts_S2048x1_S2048x1280 (ix2 y x) = v (ix2 y 0) := by
  refine broadcastTo_apply v broadcasts_S2048x1_S2048x1280 (ix2 y x) (ix2 y 0) fun ax => ?_
  match ax with
  | ⟨0, _⟩ => rfl
  | ⟨1, _⟩ => rfl

/-- The tile of label-selected terms at a row and a column: the label table's entry less `c9 · log p` where the
    column's token is the row's label, zero elsewhere. -/
theorem pay8_apply (i : grid0.Coords) (x0 : Vec Ideal S2048x1280 .f32) (x4 : Vec Ideal S1x1280 .f32) (x1 : Vec Ideal S2048x1 .i32)
    (y : Fin 2048) (x : Fin 1280) :
    k0_pay8 i x0 x4 x1 (ix2 y x)
      = if BitVec.ofNat 32 (i 1).val * 1280#32 + BitVec.ofNat 32 x.val = x1 (ix2 y 0)
          then x4 (ix2 0 x) - KL.c9 * Ideal.log (x0 (ix2 y x)) else 0 := by
  unfold k0_pay8
  simp only [shapeCast_self]
  show Scalar.select (IntOp.cmpi .eq (IntOp.addi (Scalar.muli (BitVec.ofNat 32 (i 1).val) 1280#32)
        (iota .tc S2048x1280 32 [1] iota_S2048x1280_d1_w32 (ix2 y x)))
        (broadcastTo S2048x1280 x1 broadcasts_S2048x1_S2048x1280 (ix2 y x)))
      (broadcastTo S2048x1280 x4 broadcasts_S1x1280_S2048x1280 (ix2 y x)
        - Ideal.ofBits .f32 0x3F666666#32 * k0_pay6 x0 (ix2 y x))
      (Ideal.ofBits .f32 0x00000000#32) = _
  rw [select_cmpi_eq, iota_single_apply, bcast_col_apply, broadcastTo_1b_ab_apply, pay6_apply, Ideal.ofBits_zero_f32]
  rfl

/-- The label-selected accumulator after a point, at a row and a lane: the ten chunks' terms of that lane added; the
    token of chunk `ch`, lane `ln` of tile `j` is `1280 j + (128 ch + ln)`, compared as 32-bit words with the row's label. -/
theorem combStep_apply (i : grid0.Coords) (x0 : Vec Ideal S2048x1280 .f32) (x4 : Vec Ideal S1x1280 .f32) (x1 : Vec Ideal S2048x1 .i32)
    (acc : Vec Ideal S2048x128 .f32) (y : Fin 2048) (ln : Fin 128) :
    combStep i x0 x4 x1 acc (ix2 y ln)
      = acc (ix2 y ln) + ∑ ch : Fin 10,
          (if BitVec.ofNat 32 (i 1).val * 1280#32 + BitVec.ofNat 32 (128 * ch.val + ln.val) = x1 (ix2 y 0)
            then x4 (ix2 0 (col ch ln)) - KL.c9 * Ideal.log (x0 (ix2 y (col ch ln))) else 0) := by
  unfold combStep
  rw [pay2_apply, pay28_apply, pay26_apply, pay24_apply, pay21_apply, pay19_apply, pay17_apply, pay15_apply, pay13_apply, pay11_apply]
  simp only [pay8_apply]
  exact sum10 (fun ch => if BitVec.ofNat 32 (i 1).val * 1280#32 + BitVec.ofNat 32 (128 * ch.val + ln.val) = x1 (ix2 y 0)
            then x4 (ix2 0 (col ch ln)) - KL.c9 * Ideal.log (x0 (ix2 y (col ch ln))) else 0) (acc (ix2 y ln))

/-- The zero word broadcast is zero everywhere. -/
theorem zero0_apply (j : S2048x128.Idx) : (k0_pay4 : FVec Ideal S2048x128 .f32) j = 0 := by
  unfold k0_pay4
  rw [shapeCast_self]
  exact Ideal.ofBits_zero_f32

/-- Likewise the second accumulator's fill. -/
theorem zero1_apply (j : S2048x128.Idx) : (k0_pay5 : FVec Ideal S2048x128 .f32) j = 0 := by
  unfold k0_pay5
  rw [shapeCast_self]
  exact Ideal.ofBits_zero_f32

/-- A row's index with lane `k` put back on the lane axis is `(y, k)`. -/
theorem lift_row (y : Fin 2048) (k : Fin 128) :
    reduces_S2048x128_S2048.lift (ix1 y) k = ix2 y k := by
  funext c
  apply Fin.ext
  show reduces_S2048x128_S2048.liftVal (ix1 y) k.val c = _
  match c with
  | ⟨0, _⟩ => rfl
  | ⟨1, _⟩ => rfl

/-- A lane sum kept as a column, at a row: the sum over the 128 lanes. -/
theorem laneSum_apply (s : FVec Ideal S2048x128 .f32) (y : Fin 2048) :
    shapeCast S2048x1 (multiReduction (F := Ideal) .add [1] S2048 s 0x00000000#32 reduces_S2048x128_S2048 (.inl rfl) rfl)
        shapeCasts_S2048_S2048x1 (ix2 y 0)
      = ∑ ln : Fin 128, s (ix2 y ln) := by
  refine (shapeCast_apply _ shapeCasts_S2048_S2048x1 (ix2 y 0) (ix1 y) ?_).trans ?_
  · rw [Shape.rowMajor_val_one, Shape.rowMajor_val_two]
    show y.val = y.val * 1 + 0
    omega
  · refine (Ideal.multiReduction_add_single s _ reduces_S2048x128_S2048 _ _ (ix1 y)).trans ?_
    exact Finset.sum_congr rfl fun ln _ => congrArg s (lift_row y ln)

/-- A select on "`x` is not zero" with zero as the other branch is the `if` on `x = 0`. -/
theorem select_cmpf_one (x A : EReal) : Scalar.select (Ideal.cmp .one x 0) A 0 = if x = 0 then 0 else A := by
  unfold Scalar.select Ideal.cmp
  by_cases h : x = 0
  · subst h; simp
  · simp [h]

/-- The row's output: zero where the row mask is zero, elsewhere the label-selected lanes' sum less `e` times the
    prior-weighted lanes' sum. -/
theorem outStep_apply (s0 s1 : Vec Ideal S2048x128 .f32) (x2 : Vec Ideal S2048x1 .f32) (y : Fin 2048) :
    k0_pay3 s0 s1 x2 (ix2 y 0)
      = if x2 (ix2 y 0) = 0 then 0 else (∑ ln : Fin 128, s1 (ix2 y ln)) - KL.e * ∑ ln : Fin 128, s0 (ix2 y ln) := by
  unfold k0_pay3
  simp only [shapeCast_self]
  show Scalar.select (Ideal.cmp .one (x2 (ix2 y 0)) (Ideal.ofBits .f32 0x00000000#32))
      (shapeCast S2048x1 (multiReduction (F := Ideal) .add [1] S2048 s1 0x00000000#32 reduces_S2048x128_S2048 (.inl rfl) rfl)
          shapeCasts_S2048_S2048x1 (ix2 y 0)
        - Ideal.ofBits .f32 0x3DCCCCCD#32
          * shapeCast S2048x1 (multiReduction (F := Ideal) .add [1] S2048 s0 0x00000000#32 reduces_S2048x128_S2048 (.inl rfl) rfl)
              shapeCasts_S2048_S2048x1 (ix2 y 0))
      (Ideal.ofBits .f32 0x00000000#32) = _
  rw [laneSum_apply, laneSum_apply, Ideal.ofBits_zero_f32, select_cmpf_one]
  rfl

end Cert.KernelIdeal.KStepIdx

end
-- ==== Proof.KAcc.lean ====
import proofs.«427229_j59923383714465_3_alg».proof.Proof.KPieces
import proofs.«427229_j59923383714465_3_alg».proof.Proof.KStepIdx

/-! What the scan leaves in the output block of a row tile after its last vocabulary tile: per row, the lane sums of the
    two accumulators, each the sum over the 25 tiles and 10 chunks of the per-lane terms, combined and masked.

    The accumulators restart at a row tile's first vocabulary tile and grow by one tile's ten chunks at each point, so
    after tile `n` they hold the sum of the first `n + 1` tiles' lane terms (induction on `n`); the output block is
    written at tile 24 from the accumulators as that point leaves them. -/

noncomputable section

open scoped BigOperators

namespace Cert.KernelIdeal.KAcc

open Cert.KernelIdeal Cert.KernelIdeal.Gen Cert.KernelIdeal.KBlocks Cert.KernelIdeal.KSteps Idealize.ShloMosaic Idealize.ShloMosaic.TcCoe Idealize.SL.Sem Idealize.ShloMosaic.ValueIdx

variable (m : (ℓ : Loc nD τ sig) → Buf (Elt Ideal) ℓ)

/-- A point's second coordinate is its vocabulary tile. -/
theorem coords1 : ∀ t : Fin cfg0.N, ((grid0.coords t) 1).val = t.val % 25 :=
  (by decide +kernel : ∀ t : Fin grid0.N, ((grid0.coords t) 1).val = t.val % 25)

theorem coords1_pt (i : Fin 2) (j : Fin 25) : ((grid0.coords (pt i j)) 1).val = j.val := by
  rw [coords1, pt_val]; have := j.isLt; omega

/-- The contents after a point do not depend on how the point's number is written. -/
theorem outsAt0_congr (c : Dev nD) {n n' : ℕ} (e : n = n') (h : n < cfg0.N) (h' : n' < cfg0.N) :
    outsAt0 m c n h = outsAt0 m c n' h' := by subst e; rfl

/-! ## One point's update of each accumulator -/

theorem s0_first (c : Dev nD) (t : Fin cfg0.N) (h0 : t.val % 25 = 0) :
    (outsAt0 m c t.val t.isLt).2.1 = dotStep (xblk m c t) (ublk m c t) (k0_pay4 (F := Ideal)) := by
  have h1 : ¬t.val % 25 = 24 := by omega
  rw [outsAt0_A m c t h0 h1]; dsimp only
  exact KPieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)

theorem s1_first (c : Dev nD) (t : Fin cfg0.N) (h0 : t.val % 25 = 0) :
    (outsAt0 m c t.val t.isLt).2.2 = combStep (grid0.coords t) (xblk m c t) (tblk m c t) (lblk m c t) (k0_pay5 (F := Ideal)) := by
  have h1 : ¬t.val % 25 = 24 := by omega
  rw [outsAt0_A m c t h0 h1]; dsimp only
  exact KPieces.sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)

theorem s0_next (c : Dev nD) (t : Fin cfg0.N) (h0 : ¬t.val % 25 = 0) :
    (outsAt0 m c t.val t.isLt).2.1 = dotStep (xblk m c t) (ublk m c t)
      (outsAt0 m c (t.val - 1) (Nat.lt_of_le_of_lt (Nat.sub_le _ _) t.isLt)).2.1 := by
  by_cases h1 : t.val % 25 = 24
  · rw [outsAt0_C m c t h0 h1]; dsimp only
    exact KPieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _
  · rw [outsAt0_B m c t h0 h1]; dsimp only
    exact KPieces.sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _

theorem s1_next (c : Dev nD) (t : Fin cfg0.N) (h0 : ¬t.val % 25 = 0) :
    (outsAt0 m c t.val t.isLt).2.2 = combStep (grid0.coords t) (xblk m c t) (tblk m c t) (lblk m c t)
      (outsAt0 m c (t.val - 1) (Nat.lt_of_le_of_lt (Nat.sub_le _ _) t.isLt)).2.2 := by
  by_cases h1 : t.val % 25 = 24
  · rw [outsAt0_C m c t h0 h1]; dsimp only
    exact KPieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _
  · rw [outsAt0_B m c t h0 h1]; dsimp only
    exact KPieces.sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _

/-- At a row tile's last vocabulary tile the output block is the masked combination of the two accumulators as this
    very point leaves them. -/
theorem out_C (c : Dev nD) (t : Fin cfg0.N) (h1 : t.val % 25 = 24) :
    (outsAt0 m c t.val t.isLt).1 = k0_pay3 (outsAt0 m c t.val t.isLt).2.1 (outsAt0 m c t.val t.isLt).2.2 (mblk m c t) := by
  have h0 : ¬t.val % 25 = 0 := by omega
  rw [s0_next m c t h0, s1_next m c t h0, outsAt0_C m c t h0 h1]; dsimp only
  exact KPieces.oC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) _ _

/-! ## The accumulators in closed form -/

/-- One tile's contribution to a lane of each accumulator. -/
def dTerm (c : Dev nD) (i : Fin 2) (y : Fin 2048) (ln : Fin 128) (j : Fin 25) : EReal :=
  ∑ ch : Fin 10, Ideal.log (xblk m c (pt i j) (ix2 y (col ch ln))) * ublk m c (pt i j) (ix2 0 (col ch ln))

def cTerm (c : Dev nD) (i : Fin 2) (y : Fin 2048) (ln : Fin 128) (j : Fin 25) : EReal :=
  ∑ ch : Fin 10,
    (if BitVec.ofNat 32 j.val * 1280#32 + BitVec.ofNat 32 (128 * ch.val + ln.val) = lblk m c (pt i j) (ix2 y 0)
      then tblk m c (pt i j) (ix2 0 (col ch ln)) - KL.c9 * Ideal.log (xblk m c (pt i j) (ix2 y (col ch ln))) else 0)

/-- Adding tile `n + 1`'s term to the sum of the tiles up to `n`. -/
theorem sum_le_succ (f : Fin 25 → EReal) (n : ℕ) (hn : n + 1 < 25) :
    (∑ j : Fin 25, if j.val ≤ n then f j else 0) + f ⟨n + 1, hn⟩ = ∑ j : Fin 25, if j.val ≤ n + 1 then f j else 0 := by
  have e : ∀ j : Fin 25, (if j.val ≤ n + 1 then f j else 0) = (if j.val ≤ n then f j else 0) + (if j = ⟨n + 1, hn⟩ then f j else 0) := by
    intro j
    by_cases h1 : j.val ≤ n
    · have h2 : j ≠ ⟨n + 1, hn⟩ := fun h => by rw [h] at h1; simp at h1
      rw [if_pos h1, if_pos (by omega), if_neg h2, add_zero]
    · by_cases h2 : j = ⟨n + 1, hn⟩
      · rw [if_neg h1, if_pos h2, if_pos (by rw [h2]), zero_add]
      · have h3 : ¬j.val ≤ n + 1 := fun h => h2 (Fin.ext (by simp only; omega))
        rw [if_neg h1, if_neg h2, if_neg h3, add_zero]
  rw [Finset.sum_congr rfl (fun j _ => e j), Finset.sum_add_distrib, Finset.sum_ite_eq' Finset.univ ⟨n + 1, hn⟩ f,
    if_pos (Finset.mem_univ _)]

theorem sum_le_zero (f : Fin 25 → EReal) : (∑ j : Fin 25, if j.val ≤ 0 then f j else 0) = f 0 := by
  rw [Finset.sum_eq_single (0 : Fin 25)]
  · rfl
  · intro j _ hj
    have : ¬j.val ≤ 0 := fun h => hj (Fin.ext (by simp only [Fin.val_zero]; omega))
    rw [if_neg this]
  · intro h; exact absurd (Finset.mem_univ _) h

theorem acc0_closed (c : Dev nD) (i : Fin 2) (y : Fin 2048) (ln : Fin 128) : ∀ (n : ℕ) (hn : n < 25),
    (outsAt0 m c (pt i ⟨n, hn⟩).val (pt i ⟨n, hn⟩).isLt).2.1 (ix2 y ln) = ∑ j : Fin 25, if j.val ≤ n then dTerm m c i y ln j else 0
  | 0, hn => by
    have h0 : (pt i ⟨0, hn⟩).val % 25 = 0 := by show (25 * i.val + 0) % 25 = 0; omega
    rw [s0_first m c _ h0]
    refine (KStepIdx.dotStep_apply (xblk m c (pt i ⟨0, hn⟩)) (ublk m c (pt i ⟨0, hn⟩)) (k0_pay4 (F := Ideal)) y ln).trans ?_
    rw [KStepIdx.zero0_apply, zero_add, sum_le_zero]; rfl
  | n + 1, hn => by
    have h0 : ¬(pt i ⟨n + 1, hn⟩).val % 25 = 0 := by show ¬(25 * i.val + (n + 1)) % 25 = 0; omega
    rw [s0_next m c _ h0]
    refine (KStepIdx.dotStep_apply (xblk m c (pt i ⟨n + 1, hn⟩)) (ublk m c (pt i ⟨n + 1, hn⟩)) _ y ln).trans ?_
    rw [outsAt0_congr m c (show (pt i ⟨n + 1, hn⟩).val - 1 = (pt i ⟨n, by omega⟩).val from by show (25 * i.val + (n + 1)) - 1 = 25 * i.val + n; omega) _ (pt i ⟨n, by omega⟩).isLt,
      acc0_closed c i y ln n (by omega)]
    exact sum_le_succ (dTerm m c i y ln) n hn

theorem acc1_closed (c : Dev nD) (i : Fin 2) (y : Fin 2048) (ln : Fin 128) : ∀ (n : ℕ) (hn : n < 25),
    (outsAt0 m c (pt i ⟨n, hn⟩).val (pt i ⟨n, hn⟩).isLt).2.2 (ix2 y ln) = ∑ j : Fin 25, if j.val ≤ n then cTerm m c i y ln j else 0
  | 0, hn => by
    have h0 : (pt i ⟨0, hn⟩).val % 25 = 0 := by show (25 * i.val + 0) % 25 = 0; omega
    rw [s1_first m c _ h0]
    refine (KStepIdx.combStep_apply (grid0.coords (pt i ⟨0, hn⟩)) (xblk m c (pt i ⟨0, hn⟩)) (tblk m c (pt i ⟨0, hn⟩)) (lblk m c (pt i ⟨0, hn⟩)) (k0_pay5 (F := Ideal)) y ln).trans ?_
    rw [KStepIdx.zero1_apply, zero_add, sum_le_zero, coords1_pt]; rfl
  | n + 1, hn => by
    have h0 : ¬(pt i ⟨n + 1, hn⟩).val % 25 = 0 := by show ¬(25 * i.val + (n + 1)) % 25 = 0; omega
    rw [s1_next m c _ h0]
    refine (KStepIdx.combStep_apply (grid0.coords (pt i ⟨n + 1, hn⟩)) (xblk m c (pt i ⟨n + 1, hn⟩)) (tblk m c (pt i ⟨n + 1, hn⟩)) (lblk m c (pt i ⟨n + 1, hn⟩)) _ y ln).trans ?_
    rw [outsAt0_congr m c (show (pt i ⟨n + 1, hn⟩).val - 1 = (pt i ⟨n, by omega⟩).val from by show (25 * i.val + (n + 1)) - 1 = 25 * i.val + n; omega) _ (pt i ⟨n, by omega⟩).isLt,
      acc1_closed c i y ln n (by omega), coords1_pt]
    exact sum_le_succ (cTerm m c i y ln) n hn

theorem sum_le_all (f : Fin 25 → EReal) : (∑ j : Fin 25, if j.val ≤ 24 then f j else 0) = ∑ j : Fin 25, f j :=
  Finset.sum_congr rfl fun j _ => if_pos (by have := j.isLt; omega)

theorem out_last (c : Dev nD) (i : Fin 2) (y : Fin 2048) :
    (outsAt0 m c (pt i 24).val (pt i 24).isLt).1 (ix2 y 0)
      = if mblk m c (pt i 24) (ix2 y 0) = 0 then 0 else
          (∑ ln : Fin 128, ∑ j : Fin 25, ∑ ch : Fin 10,
              (if BitVec.ofNat 32 j.val * 1280#32 + BitVec.ofNat 32 (128 * ch.val + ln.val) = lblk m c (pt i j) (ix2 y 0)
                then tblk m c (pt i j) (ix2 0 (col ch ln)) - KL.c9 * Ideal.log (xblk m c (pt i j) (ix2 y (col ch ln))) else 0))
            - KL.e * (∑ ln : Fin 128, ∑ j : Fin 25, ∑ ch : Fin 10,
                Ideal.log (xblk m c (pt i j) (ix2 y (col ch ln))) * ublk m c (pt i j) (ix2 0 (col ch ln))) := by
  have h1 : (pt i 24).val % 25 = 24 := by show (25 * i.val + 24) % 25 = 24; omega
  rw [out_C m c _ h1]
  refine (KStepIdx.outStep_apply _ _ (mblk m c (pt i 24)) y).trans ?_
  have e0 : ∀ ln : Fin 128, (outsAt0 m c (pt i 24).val (pt i 24).isLt).2.1 (ix2 y ln) = ∑ j : Fin 25, dTerm m c i y ln j :=
    fun ln => (acc0_closed m c i y ln 24 (by decide)).trans (sum_le_all _)
  have e1 : ∀ ln : Fin 128, (outsAt0 m c (pt i 24).val (pt i 24).isLt).2.2 (ix2 y ln) = ∑ j : Fin 25, cTerm m c i y ln j :=
    fun ln => (acc1_closed m c i y ln 24 (by decide)).trans (sum_le_all _)
  simp only [e0, e1, dTerm, cTerm]

end Cert.KernelIdeal.KAcc

end
-- ==== Proof.KHostLt.lean ====
import proofs.«427229_j59923383714465_3_alg».proof.Proof.KBlocks
import Idealize.ShloMosaic.Lib.Pipeline.Value
import Idealize.ShloMosaic.PureOps.Ideal.Laws

/-! The prior and the label table as they are computed before the scan, entry by entry: the histogram divided by its
    total, and for a token `v` the closed form of `∑ w, xlx (q w)` for a row labelled `v`,
    `xlx (c + e·u v) + (e log e)(1 − u v) + e (H − xlx (u v))` with `H = ∑ w, xlx (u w)`. -/

noncomputable section

open scoped BigOperators

namespace Cert.KernelIdeal.KHostLt

open Cert.KernelIdeal Cert.KernelIdeal.Facts₀ Idealize.ShloMosaic Idealize.ShloMosaic.ValueIdx

/-! ## The terms -/

/-- A scalar copied to every token. -/
abbrev spread (x : FVec Ideal S_ .f32) : FVec Ideal S32000 .f32 := broadcastInDim S32000 ![] bcast_S_S32000 x

/-- The scalar an f32 word denotes. -/
abbrev lit (w : BitVec 32) : FVec Ideal S_ .f32 := constant (F := Ideal) S_ .f32 w

/-- The sum over the vocabulary, from zero. -/
abbrev total (x : FVec Ideal S32000 .f32) : FVec Ideal S_ .f32 :=
  Host.reduceAdd (F := Ideal) x (lit 0x00000000#32) reducesTo_S32000_S_d0 h_S_

/-- `x log x` entry by entry, guarded to zero where `x` is zero. -/
abbrev xlogyVec (q : FVec Ideal S32000 .f32) : FVec Ideal S32000 .f32 :=
  select (ori (cmpf .une q (spread (lit 0x00000000#32))) (cmpf .une q q)) (mulf q (Host.log (F := Ideal) q))
    (spread (lit 0x00000000#32))

/-- The unigram prior: the histogram over its total. -/
def uVec (A2 : FVec Ideal S32000 .f32) : FVec Ideal S32000 .f32 :=
  Host.divf (F := Ideal) A2 (spread (total A2))

/-- The label table. -/
def ltVec (A2 : FVec Ideal S32000 .f32) : FVec Ideal S32000 .f32 :=
  addf
    (addf
      (xlogyVec (addf (spread (lit 0x3F666666#32)) (mulf (spread (lit 0x3DCCCCCD#32)) (uVec A2))))
      (mulf
        (spread (id (mulf (lit 0x3DCCCCCD#32) (Host.log (F := Ideal) (lit 0x3DCCCCCD#32)))))
        (subf (spread (lit 0x3F800000#32)) (uVec A2))))
    (mulf (spread (lit 0x3DCCCCCD#32))
      (subf (spread (total (xlogyVec (uVec A2)))) (xlogyVec (uVec A2))))

/-! ## Words -/

/-- The f32 word `0x3F800000` denotes one. -/
theorem ofBits_one_f32 : Ideal.ofBits .f32 0x3F800000#32 = 1 := by
  simp [Ideal.ofBits, Ideal.ieee]
  rw [← EReal.coe_mul, ← EReal.coe_one, EReal.coe_eq_coe_iff]
  norm_num

/-- The guarded product — `q · log q` where `q ≠ 0` or `q ≠ q`, else zero — is `x log x`, zero at zero. -/
theorem xlogy_eq (q : EReal) :
    Scalar.select (IntOp.ori (Ideal.cmp .une q (Ideal.ofBits .f32 0x00000000#32)) (Ideal.cmp .une q q))
      (q * Ideal.log q) (Ideal.ofBits .f32 0x00000000#32) = KL.xlx q := by
  rw [Ideal.ofBits_zero_f32]
  unfold KL.xlx
  by_cases h : q = 0
  · subst h
    rw [if_pos rfl]
    show Scalar.select (IntOp.ori (BitVec.ofBool (decide ((0 : EReal) ≠ 0))) (BitVec.ofBool (decide ((0 : EReal) ≠ 0)))) _ _ = _
    simp [IntOp.ori, Scalar.select]
  · rw [if_neg h]
    show Scalar.select (IntOp.ori (BitVec.ofBool (decide (q ≠ 0))) (BitVec.ofBool (decide (q ≠ q)))) _ _ = _
    simp [IntOp.ori, Scalar.select, h]

/-! ## Sums over the vocabulary by token -/

/-- A vocabulary index is its token. -/
def idxEquiv1 : S32000.Idx ≃ Fin 32000 where
  toFun i := i 0
  invFun v := ix1 v
  left_inv i := (eq_ix1 i).symm
  right_inv _ := rfl

theorem sum_idx1 (f : S32000.Idx → EReal) : ∑ i, f i = ∑ v : Fin 32000, f (ix1 v) := by
  rw [← Equiv.sum_comp idxEquiv1.symm f]
  rfl

/-! ## The terms read at a token -/

theorem spread_apply (x : FVec Ideal S_ .f32) (i : S32000.Idx) : spread x i = x ix0 :=
  broadcastInDim_apply _ bcast_S_S32000 x i ix0 (fun a => a.elim0)

theorem lit_apply (w : BitVec 32) (i : S_.Idx) : lit w i = Ideal.ofBits .f32 w := rfl

theorem total_apply (x : FVec Ideal S32000 .f32) (i : S_.Idx) : total x i = ∑ j : S32000.Idx, x j := by
  show FloatOps.hostReduceAdd (F := Ideal) _ reducesTo_S32000_S_d0 _ x (lit 0x00000000#32 _) i = _
  rw [Ideal.hostReduceAdd_def, Ideal.hostReduceAdd_total reducesTo_S32000_S_d0 (fun b => b.elim0) x _ i, lit_apply,
    Ideal.ofBits_zero_f32, zero_add]

theorem xlogyVec_apply (q : FVec Ideal S32000 .f32) (i : S32000.Idx) : xlogyVec q i = KL.xlx (q i) := by
  show Scalar.select (IntOp.ori (Ideal.cmp .une (q i) (spread (lit 0x00000000#32) i)) (Ideal.cmp .une (q i) (q i)))
      (q i * Ideal.log (q i)) (spread (lit 0x00000000#32) i) = _
  rw [spread_apply, lit_apply]
  exact xlogy_eq (q i)

/-- A quotient and a logarithm of vectors, entry by entry. -/
theorem hostDivf_apply {s : Shape} (x y : FVec Ideal s .f32) (i : s.Idx) :
    Host.divf (F := Ideal) x y i = Ideal.div (x i) (y i) := rfl
theorem hostLog_apply {s : Shape} (x : FVec Ideal s .f32) (i : s.Idx) :
    Host.log (F := Ideal) x i = Ideal.log (x i) := rfl

theorem uVec_apply (A2 : FVec Ideal S32000 .f32) (v : Fin 32000) : uVec A2 (ix1 v) = KL.u A2 v := by
  unfold uVec KL.u KL.tot
  rw [hostDivf_apply, spread_apply, total_apply]

theorem ltVec_apply (A2 : FVec Ideal S32000 .f32) (v : Fin 32000) : ltVec A2 (ix1 v) = KL.lt (KL.u A2) v := by
  have hH : (∑ w : Fin 32000, xlogyVec (uVec A2) (ix1 w)) = KL.Hu (KL.u A2) :=
    Finset.sum_congr rfl fun w _ => by rw [xlogyVec_apply, uVec_apply]
  unfold ltVec KL.lt
  rw [addf_apply, addf_apply, mulf_apply, mulf_apply, subf_apply, subf_apply, xlogyVec_apply, xlogyVec_apply,
    addf_apply, mulf_apply, spread_apply, spread_apply, spread_apply, spread_apply, spread_apply, id_eq, mulf_apply,
    hostLog_apply, total_apply, sum_idx1, hH, lit_apply, lit_apply, lit_apply, ofBits_one_f32, uVec_apply]
  rfl

end Cert.KernelIdeal.KHostLt

end
-- ==== Proof.KHost.lean ====
import proofs.«427229_j59923383714465_3_alg».proof.Proof.KBlocks
import proofs.«427229_j59923383714465_3_alg».proof.Proof.KHostLt
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

/-! The blocks the scan is handed, read off the argument arrays: the probabilities flattened to rows, the labels shifted
    by one position and padded with a zero column, the row mask likewise, the prior and the label table as one row. -/

noncomputable section

open scoped BigOperators

namespace Cert.KernelIdeal.KHost

open Cert.KernelIdeal Cert.KernelIdeal.Gen Cert.KernelIdeal.KBlocks Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The probabilities: row `2048 i + y`, token `1280 j + 128 ch + ln` of the flattened array -/

/-- Window 0 visits block `(t / 25, t % 25)`. -/
theorem idx0 : ∀ t : Fin cfg0.N, win0_0.index t (0 : Fin 2) = t.val / 25 ∧ win0_0.index t 1 = t.val % 25 :=
  (by decide +kernel : ∀ t : Fin grid0.N, win0_0.index t (0 : Fin 2) = t.val / 25 ∧ win0_0.index t 1 = t.val % 25)

set_option maxHeartbeats 4000000 in
/-- The scan finds the probabilities flattened to `[4096, 32000]`. -/
theorem v53_eq (c : Dev nD) : (V m c main_v53 : S4096x32000.Idx → EReal) = shapeCast S4096x32000 (a1 m c) shapeCasts_S4x1024x32000_S4096x32000 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem xblk_apply (c : Dev nD) (i : Fin 2) (j : Fin 25) (y : Fin 2048) (ch : Fin 10) (ln : Fin 128) :
    xblk m c (pt i j) (ix2 y (col ch ln)) = a1 m c (ix3 (rowB i y) (rowS i y) (KL.tok j ch ln)) := by
  have hi := idx0 (pt i j)
  have hp := pt_val i j
  show V m c main_v53 (((cfg0.win 0).blk (pt i j)).view.emb (ix2 y (col ch ln))) = _
  rw [v53_eq]
  refine shapeCast_apply _ _ _ _ ?_
  rw [Shape.rowMajor_val_three, Shape.rowMajor_val_two]
  show ((rowB i y).val * 1024 + (rowS i y).val) * 32000 + (KL.tok j ch ln).val
    = (win0_0.index (pt i j) 0 * 2048 + 1 * y.val) * 32000 + (win0_0.index (pt i j) 1 * 1280 + 1 * (col ch ln).val)
  rw [hi.1, hi.2, hp]
  have := i.isLt; have := j.isLt; have := y.isLt; have := ch.isLt; have := ln.isLt
  simp only [rowB, rowS, KL.tok, col]
  omega

/-! ## The labels -/

/-- The labels as the host lays them out: each sequence's tokens from the second on, then a zero. -/
def labPad (A0 : IVec S4x1024 32) : IVec S4x1024 32 :=
  concatenate S4x1024 1 [⟨S4x1023, extractStridedSlice S4x1023 ![0, 1] A0 slices_S4x1024_S4x1023_0_1⟩,
    ⟨S4x1, broadcastInDim S4x1 ![] bcast_S_S4x1 (constantI S_ 32 0#32)⟩] concatenates_S4x1023_S4x1_S4x1024_d1

theorem labPad_apply (A0 : IVec S4x1024 32) (b : Fin 4) (s : Fin 1024) :
    labPad A0 (ix2 b s) = if h : s.val < 1023 then KL.lab A0 b ⟨s.val, h⟩ else 0#32 := by
  unfold labPad
  by_cases h : s.val < 1023
  · rw [dif_pos h]
    refine (concatenate_pair_apply_left (1 : Fin S4x1024.rank) _ _ concatenates_S4x1023_S4x1_S4x1024_d1 (ix2 b s) rfl
      (ix2 b (⟨s.val, h⟩ : Fin 1023)) ?_).trans ?_
    · intro a
      match a with
      | ⟨0, _⟩ => rfl
      | ⟨1, _⟩ => rfl
    · exact extractStridedSlice_apply ![0, 1] A0 slices_S4x1024_S4x1023_0_1 (ix2 b (⟨s.val, h⟩ : Fin 1023))
        (ix2 b (⟨s.val, h⟩ : Fin 1023).succ) (fun a => match a with
          | ⟨0, _⟩ => by show b.val = 0 + b.val; omega
          | ⟨1, _⟩ => by show s.val + 1 = 1 + s.val; omega)
  · rw [dif_neg h]
    have hs : s.val = 1023 := by have := s.isLt; omega
    refine (concatenate_pair_apply_right (1 : Fin S4x1024.rank) _ _ concatenates_S4x1023_S4x1_S4x1024_d1 (ix2 b s) rfl rfl
      (ix2 b (0 : Fin 1)) ?_ ?_).trans ?_
    · intro a ha
      match a with
      | ⟨0, _⟩ => rfl
      | ⟨1, _⟩ => exact absurd rfl ha
    · show 0 + 1023 = s.val
      omega
    · rfl

/-- Window 1 visits block `(t / 25, 0)`. -/
theorem idx1 : ∀ t : Fin cfg0.N, win0_1.index t (0 : Fin 2) = t.val / 25 ∧ win0_1.index t 1 = 0 :=
  (by decide +kernel : ∀ t : Fin grid0.N, win0_1.index t (0 : Fin 2) = t.val / 25 ∧ win0_1.index t 1 = 0)

set_option maxHeartbeats 4000000 in
/-- The scan finds the padded labels as one column. -/
theorem v54_eq (c : Dev nD) : (V m c main_v54 : S4096x1.Idx → BitVec 32) = shapeCast S4096x1 (labPad (a0 m c)) shapeCasts_S4x1024_S4096x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem lblk_apply (c : Dev nD) (i : Fin 2) (j : Fin 25) (y : Fin 2048) :
    lblk m c (pt i j) (ix2 y 0) = if h : (rowS i y).val < 1023 then KL.lab (a0 m c) (rowB i y) ⟨(rowS i y).val, h⟩ else 0#32 := by
  have hi := idx1 (pt i j)
  have hp := pt_val i j
  show V m c main_v54 (((cfg0.win 1).blk (pt i j)).view.emb (ix2 y 0)) = _
  rw [v54_eq]
  refine (shapeCast_apply _ _ _ (ix2 (rowB i y) (rowS i y)) ?_).trans (labPad_apply _ _ _)
  rw [Shape.rowMajor_val_two, Shape.rowMajor_val_two]
  show (rowB i y).val * 1024 + (rowS i y).val
    = (win0_1.index (pt i j) 0 * 2048 + 1 * y.val) * 1 + (win0_1.index (pt i j) 1 * 1 + 1 * 0)
  rw [hi.1, hi.2, hp]
  have := i.isLt; have := j.isLt; have := y.isLt
  simp only [rowB, rowS]
  omega

/-! ## The row mask -/

/-- The row mask as the host lays it out: one where the label is not the padding token, then a zero. -/
def mskPad (A0 : IVec S4x1024 32) : FVec Ideal S4x1024 .f32 :=
  concatenate S4x1024 1 [⟨S4x1023, uitofp .f32 (cmpi .ne (extractStridedSlice S4x1023 ![0, 1] A0 slices_S4x1024_S4x1023_0_1)
      (broadcastInDim S4x1023 ![] bcast_S_S4x1023 (constantI S_ 32 0#32)))⟩,
    ⟨S4x1, broadcastInDim S4x1 ![] bcast_S_S4x1 (constant (F := Ideal) S_ .f32 0x00000000#32)⟩] concatenates_S4x1023_S4x1_S4x1024_d1

/-- A word's "is not zero" bit, read as a number, is the mask. -/
theorem uitofp_ne_zero (l : BitVec 32) : FloatOps.uitofp (F := Ideal) .f32 (IntOp.cmpi .ne l 0#32) = KL.msk l := by
  unfold KL.msk
  show (((BitVec.ofBool (l != 0#32)).toNat : ℝ) : EReal) = _
  by_cases hl : l = 0#32
  · rw [if_pos hl, hl]
    simp
  · rw [if_neg hl]
    have : (l != 0#32) = true := by simpa [bne_iff_ne] using hl
    rw [this]
    simp

theorem mskPad_apply (A0 : IVec S4x1024 32) (b : Fin 4) (s : Fin 1024) :
    mskPad A0 (ix2 b s) = if h : s.val < 1023 then KL.msk (KL.lab A0 b ⟨s.val, h⟩) else 0 := by
  unfold mskPad
  by_cases h : s.val < 1023
  · rw [dif_pos h]
    refine (concatenate_pair_apply_left (1 : Fin S4x1024.rank) _ _ concatenates_S4x1023_S4x1_S4x1024_d1 (ix2 b s) rfl
      (ix2 b (⟨s.val, h⟩ : Fin 1023)) ?_).trans ?_
    · intro a
      match a with
      | ⟨0, _⟩ => rfl
      | ⟨1, _⟩ => rfl
    · have e : extractStridedSlice S4x1023 ![0, 1] A0 slices_S4x1024_S4x1023_0_1 (ix2 b (⟨s.val, h⟩ : Fin 1023)) = KL.lab A0 b ⟨s.val, h⟩ :=
        extractStridedSlice_apply ![0, 1] A0 slices_S4x1024_S4x1023_0_1 (ix2 b (⟨s.val, h⟩ : Fin 1023))
          (ix2 b (⟨s.val, h⟩ : Fin 1023).succ) (fun a => match a with
            | ⟨0, _⟩ => by show b.val = 0 + b.val; omega
            | ⟨1, _⟩ => by show s.val + 1 = 1 + s.val; omega)
      show FloatOps.uitofp (F := Ideal) .f32 (IntOp.cmpi .ne (extractStridedSlice S4x1023 ![0, 1] A0 slices_S4x1024_S4x1023_0_1 (ix2 b (⟨s.val, h⟩ : Fin 1023))) 0#32) = _
      rw [e]
      exact uitofp_ne_zero _
  · rw [dif_neg h]
    have hs : s.val = 1023 := by have := s.isLt; omega
    refine (concatenate_pair_apply_right (1 : Fin S4x1024.rank) _ _ concatenates_S4x1023_S4x1_S4x1024_d1 (ix2 b s) rfl rfl
      (ix2 b (0 : Fin 1)) ?_ ?_).trans ?_
    · intro a ha
      match a with
      | ⟨0, _⟩ => rfl
      | ⟨1, _⟩ => exact absurd rfl ha
    · show 0 + 1023 = s.val
      omega
    · exact Ideal.ofBits_zero_f32

/-- Window 2 visits block `(t / 25, 0)`. -/
theorem idx2 : ∀ t : Fin cfg0.N, win0_2.index t (0 : Fin 2) = t.val / 25 ∧ win0_2.index t 1 = 0 :=
  (by decide +kernel : ∀ t : Fin grid0.N, win0_2.index t (0 : Fin 2) = t.val / 25 ∧ win0_2.index t 1 = 0)

set_option maxHeartbeats 4000000 in
/-- The scan finds the padded mask as one column. -/
theorem v55_eq (c : Dev nD) : (V m c main_v55 : S4096x1.Idx → EReal) = shapeCast S4096x1 (mskPad (a0 m c)) shapeCasts_S4x1024_S4096x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem mblk_apply (c : Dev nD) (i : Fin 2) (j : Fin 25) (y : Fin 2048) :
    mblk m c (pt i j) (ix2 y 0) = if h : (rowS i y).val < 1023 then KL.msk (KL.lab (a0 m c) (rowB i y) ⟨(rowS i y).val, h⟩) else 0 := by
  have hi := idx2 (pt i j)
  have hp := pt_val i j
  show V m c main_v55 (((cfg0.win 2).blk (pt i j)).view.emb (ix2 y 0)) = _
  rw [v55_eq]
  refine (shapeCast_apply _ _ _ (ix2 (rowB i y) (rowS i y)) ?_).trans (mskPad_apply _ _ _)
  rw [Shape.rowMajor_val_two, Shape.rowMajor_val_two]
  show (rowB i y).val * 1024 + (rowS i y).val
    = (win0_2.index (pt i j) 0 * 2048 + 1 * y.val) * 1 + (win0_2.index (pt i j) 1 * 1 + 1 * 0)
  rw [hi.1, hi.2, hp]
  have := i.isLt; have := j.isLt; have := y.isLt
  simp only [rowB, rowS]
  omega

/-! ## The prior and the label table: token `1280 j + 128 ch + ln` of the one row -/

/-- Windows 3 and 4 visit block `(0, t % 25)`. -/
theorem idx3 : ∀ t : Fin cfg0.N, win0_3.index t (0 : Fin 2) = 0 ∧ win0_3.index t 1 = t.val % 25 :=
  (by decide +kernel : ∀ t : Fin grid0.N, win0_3.index t (0 : Fin 2) = 0 ∧ win0_3.index t 1 = t.val % 25)
theorem idx4 : ∀ t : Fin cfg0.N, win0_4.index t (0 : Fin 2) = 0 ∧ win0_4.index t 1 = t.val % 25 :=
  (by decide +kernel : ∀ t : Fin grid0.N, win0_4.index t (0 : Fin 2) = 0 ∧ win0_4.index t 1 = t.val % 25)

set_option maxHeartbeats 4000000 in
/-- The scan finds the prior as one row. -/
theorem v56_eq (c : Dev nD) : (V m c main_v56 : S1x32000.Idx → EReal) = shapeCast S1x32000 (KHostLt.uVec (a2 m c)) shapeCasts_S32000_S1x32000 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem ublk_apply (c : Dev nD) (i : Fin 2) (j : Fin 25) (ch : Fin 10) (ln : Fin 128) :
    ublk m c (pt i j) (ix2 0 (col ch ln)) = KL.u (a2 m c) (KL.tok j ch ln) := by
  have hi := idx3 (pt i j)
  have hp := pt_val i j
  show V m c main_v56 (((cfg0.win 3).blk (pt i j)).view.emb (ix2 0 (col ch ln))) = _
  rw [v56_eq]
  refine (shapeCast_apply _ _ _ (ix1 (KL.tok j ch ln)) ?_).trans (KHostLt.uVec_apply _ _)
  rw [Shape.rowMajor_val_two, Shape.rowMajor_val_one]
  show (KL.tok j ch ln).val
    = (win0_3.index (pt i j) 0 * 1 + 1 * 0) * 32000 + (win0_3.index (pt i j) 1 * 1280 + 1 * (col ch ln).val)
  rw [hi.1, hi.2, hp]
  have := i.isLt; have := j.isLt; have := ch.isLt; have := ln.isLt
  simp only [KL.tok, col]
  omega

set_option maxHeartbeats 4000000 in
/-- The scan finds the label table as one row. -/
theorem v57_eq (c : Dev nD) : (V m c main_v57 : S1x32000.Idx → EReal) = shapeCast S1x32000 (KHostLt.ltVec (a2 m c)) shapeCasts_S32000_S1x32000 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem tblk_apply (c : Dev nD) (i : Fin 2) (j : Fin 25) (ch : Fin 10) (ln : Fin 128) :
    tblk m c (pt i j) (ix2 0 (col ch ln)) = KL.lt (KL.u (a2 m c)) (KL.tok j ch ln) := by
  have hi := idx4 (pt i j)
  have hp := pt_val i j
  show V m c main_v57 (((cfg0.win 4).blk (pt i j)).view.emb (ix2 0 (col ch ln))) = _
  rw [v57_eq]
  refine (shapeCast_apply _ _ _ (ix1 (KL.tok j ch ln)) ?_).trans (KHostLt.ltVec_apply _ _)
  rw [Shape.rowMajor_val_two, Shape.rowMajor_val_one]
  show (KL.tok j ch ln).val
    = (win0_4.index (pt i j) 0 * 1 + 1 * 0) * 32000 + (win0_4.index (pt i j) 1 * 1280 + 1 * (col ch ln).val)
  rw [hi.1, hi.2, hp]
  have := i.isLt; have := j.isLt; have := ch.isLt; have := ln.isLt
  simp only [KL.tok, col]
  omega

end Cert.KernelIdeal.KHost

end
-- ==== Proof.KLMath.lean ====
import proofs.«427229_j59923383714465_3_alg».proof.Proof.KLSpec

/-! The two forms of the label-smoothed KL loss agree, and the tiled scan of a row is the plain sum over the vocabulary. -/

noncomputable section

open scoped BigOperators

namespace KL

open Idealize.ShloMosaic Idealize.ShloMosaic.ValueIdx

/-- Lane ln of chunk ch of tile j holds token 1280 j + 128 ch + ln: a bijection onto the vocabulary. -/
def tokEquiv : Fin 128 × Fin 25 × Fin 10 ≃ Fin 32000 where
  toFun x := tok x.2.1 x.2.2 x.1
  invFun v := (⟨v.val % 128, by omega⟩, ⟨v.val / 1280, by have := v.isLt; omega⟩,
    ⟨v.val % 1280 / 128, by omega⟩)
  left_inv := by
    rintro ⟨ln, j, ch⟩
    have := ln.isLt; have := j.isLt; have := ch.isLt
    simp only [tok, Prod.mk.injEq, Fin.ext_iff]
    refine ⟨?_, ?_, ?_⟩ <;> omega
  right_inv := by
    intro v
    have := v.isLt
    simp only [tok, Fin.ext_iff]
    omega

/-- Summing over lanes, tiles and chunks visits every token exactly once. -/
theorem sum_tok {M : Type*} [AddCommMonoid M] (f : Fin 32000 → M) :
    ∑ ln : Fin 128, ∑ j : Fin 25, ∑ ch : Fin 10, f (tok j ch ln) = ∑ v : Fin 32000, f v := by
  rw [← Equiv.sum_comp tokEquiv f, Fintype.sum_prod_type]
  refine Finset.sum_congr rfl fun ln _ => ?_
  rw [Fintype.sum_prod_type]
  rfl

/-- The tile base plus the position inside the tile, as 32-bit words, is the token's word. -/
theorem tok_word (j : Fin 25) (ch : Fin 10) (ln : Fin 128) :
    BitVec.ofNat 32 j.val * 1280#32 + BitVec.ofNat 32 (128 * ch.val + ln.val)
      = BitVec.ofNat 32 (tok j ch ln).val := by
  have := ln.isLt; have := j.isLt; have := ch.isLt
  apply BitVec.eq_of_toNat_eq
  simp only [tok, BitVec.toNat_add, BitVec.toNat_mul, BitVec.toNat_ofNat]
  omega

/-- The tiled scan of one row re-indexed: 25 tiles × 10 chunks × 128 lanes enumerate the 32000 tokens once each, and the
    scan's 32-bit label test `1280 j + (128 ch + ln) = l` is the test `l = v` at the token the lane holds. -/
theorem scanRow_eq (lbl : BitVec 32) (mk : EReal) (Lr uu ltb : Fin 32000 → EReal) :
    scanRow lbl mk Lr uu ltb
      = if mk = 0 then 0 else
          (∑ v : Fin 32000, if lbl = BitVec.ofNat 32 v.val then ltb v - c9 * Lr v else 0) - e * ∑ v : Fin 32000, Lr v * uu v := by
  unfold scanRow
  split_ifs with hm
  · rfl
  · rw [← sum_tok (fun v => if lbl = BitVec.ofNat 32 v.val then ltb v - c9 * Lr v else 0),
      ← sum_tok (fun v => Lr v * uu v)]
    simp only [tok_word, eq_comm]

/-! ## The collapse -/

/-- The smoothing weight is a positive real. -/
theorem e_real : ∃ r : ℝ, 0 < r ∧ e = (r : EReal) := by
  refine ⟨13421773 / 134217728, by norm_num, ?_⟩
  unfold e
  simp [Ideal.ofBits, Ideal.ieee, -EReal.coe_mul]; norm_num

/-- The complementary weight is a positive real. -/
theorem c9_real : ∃ r : ℝ, 0 < r ∧ c9 = (r : EReal) := by
  refine ⟨15099494 / 16777216, by norm_num, ?_⟩
  unfold c9
  simp [Ideal.ofBits, Ideal.ieee, -EReal.coe_mul]; norm_num

/-- Coercion of the reals commutes with finite sums. -/
theorem coe_sum {ι : Type*} (s : Finset ι) (f : ι → ℝ) :
    ((∑ v ∈ s, f v : ℝ) : EReal) = ∑ v ∈ s, (f v : EReal) := by
  classical
  induction s using Finset.induction_on with
  | empty => simp
  | insert a s ha ih => rw [Finset.sum_insert ha, Finset.sum_insert ha, EReal.coe_add, ih]

/-- A finite sum of terms none of which is +∞ is not +∞. -/
theorem sum_ne_top {ι : Type*} (s : Finset ι) (f : ι → EReal) (h : ∀ v, f v ≠ ⊤) :
    ∑ v ∈ s, f v ≠ ⊤ := by
  classical
  induction s using Finset.induction_on with
  | empty => simp
  | insert a s ha ih => rw [Finset.sum_insert ha]; exact EReal.add_ne_top (h a) ih

/-- Negation passes through a finite sum none of whose terms is +∞. -/
theorem neg_sum {ι : Type*} (s : Finset ι) (f : ι → EReal) (h : ∀ v, f v ≠ ⊤) :
    -(∑ v ∈ s, f v) = ∑ v ∈ s, -f v := by
  classical
  induction s using Finset.induction_on with
  | empty => simp
  | insert a s ha ih =>
    rw [Finset.sum_insert ha, Finset.sum_insert ha,
      EReal.neg_add (.inr (sum_ne_top s f h)) (.inl (h a)), sub_eq_add_neg, ih]

/-- A nonnegative real factor distributes over a finite sum of extended reals. -/
theorem mul_sum_of_nonneg {ι : Type*} (s : Finset ι) (f : ι → EReal) {r : ℝ} (hr : 0 ≤ r) :
    (r : EReal) * ∑ v ∈ s, f v = ∑ v ∈ s, (r : EReal) * f v := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- At a nonnegative real, x log x is the real x log x (zero at zero). -/
theorem xlx_coe {x : ℝ} (hx : 0 ≤ x) : xlx (x : EReal) = ((x * Real.log x : ℝ) : EReal) := by
  unfold xlx
  rcases hx.eq_or_lt with h | h
  · subst h; simp
  · have hne : (x : EReal) ≠ 0 := by exact_mod_cast h.ne'
    rw [if_neg hne, Ideal.log_coe, if_neg (not_le.mpr h), EReal.coe_mul]

/-- The logarithm is +∞ only at +∞. -/
theorem log_ne_top {x : EReal} (hx : x ≠ ⊤) : Ideal.log x ≠ ⊤ := by
  induction x using EReal.rec with
  | bot => simp
  | top => exact absurd rfl hx
  | coe r =>
    rw [Ideal.log_coe]
    split_ifs
    · exact bot_ne_top
    · exact EReal.coe_ne_top _

/-- A product of a term that is not +∞ with a nonnegative real is not +∞. -/
theorem mul_coe_ne_top {a : EReal} (ha : a ≠ ⊤) {r : ℝ} (hr : 0 ≤ r) : a * (r : EReal) ≠ ⊤ := by
  rw [EReal.mul_ne_top]
  exact ⟨.inr (EReal.coe_nonneg.mpr hr), .inr (EReal.coe_ne_bot r), .inl ha, .inr (EReal.coe_ne_top r)⟩

/-- x log x of a positive multiple. -/
theorem real_xlx_mul {a x : ℝ} (ha : 0 < a) (hx : 0 ≤ x) :
    (a * x) * Real.log (a * x) = a * Real.log a * x + a * (x * Real.log x) := by
  rcases hx.eq_or_lt with h | h
  · subst h; simp
  · rw [Real.log_mul ha.ne' h.ne']; ring

/-- The real identity behind the label table: the sum of x log x over the smoothed target, in closed form. -/
theorem real_lt (k : Fin 32000) (ur : Fin 32000 → ℝ) (hu0 : ∀ v, 0 ≤ ur v) (hu1 : ∑ v, ur v = 1)
    {er cr : ℝ} (he : 0 < er) :
    ∑ v, ((cr * (if v = k then 1 else 0) + er * ur v) * Real.log (cr * (if v = k then 1 else 0) + er * ur v))
      = ((cr + er * ur k) * Real.log (cr + er * ur k) + (er * Real.log er) * (1 - ur k))
        + er * (∑ v, ur v * Real.log (ur v) - ur k * Real.log (ur k)) := by
  have key : ∀ v, (cr * (if v = k then (1:ℝ) else 0) + er * ur v) * Real.log (cr * (if v = k then 1 else 0) + er * ur v)
      = (if v = k then (cr + er * ur k) * Real.log (cr + er * ur k) - (er * ur k) * Real.log (er * ur k) else 0)
        + (er * Real.log er * ur v + er * (ur v * Real.log (ur v))) := by
    intro v
    by_cases h : v = k
    · subst h
      simp only [↓reduceIte, mul_one]
      rw [real_xlx_mul he (hu0 _)]; ring
    · simp only [if_neg h, mul_zero, zero_add]
      exact real_xlx_mul he (hu0 v)
  simp only [key]
  rw [Finset.sum_add_distrib, Finset.sum_ite_eq', if_pos (Finset.mem_univ k), Finset.sum_add_distrib,
    ← Finset.mul_sum, ← Finset.mul_sum, hu1, real_xlx_mul he (hu0 k)]
  ring

/-- A sum of two nonnegative reals times an extended real distributes. -/
theorem coe_add_mul {a b : ℝ} (ha : 0 ≤ a) (hb : 0 ≤ b) (m : EReal) :
    ((a + b : ℝ) : EReal) * m = (a : EReal) * m + (b : EReal) * m := by
  rw [EReal.coe_add, EReal.right_distrib_of_nonneg (EReal.coe_nonneg.mpr ha) (EReal.coe_nonneg.mpr hb)]

/-- One row: the collapsed form is the divergence summed over the vocabulary. Here the prior is a real
    probability vector, no log-probability is +∞, and k is the one token whose word is the label. -/
theorem rowK_eq_rowR (k : Fin 32000) (ur : Fin 32000 → ℝ) (hu0 : ∀ v, 0 ≤ ur v) (hu1 : ∑ v, ur v = 1)
    (Lr : Fin 32000 → EReal) (hL : ∀ v, Lr v ≠ ⊤) (l : BitVec 32)
    (hl : ∀ v : Fin 32000, l = BitVec.ofNat 32 v.val ↔ v = k) :
    rowK l (fun v => (ur v : EReal)) Lr = rowR l (fun v => (ur v : EReal)) Lr := by
  obtain ⟨er, he, hee⟩ := e_real
  obtain ⟨cr, hc, hcc⟩ := c9_real
  have hd0 : ∀ v, 0 ≤ cr * (if v = k then (1:ℝ) else 0) := by
    intro v; split_ifs <;> simp [hc.le]
  have hq0 : ∀ v, 0 ≤ cr * (if v = k then (1:ℝ) else 0) + er * ur v :=
    fun v => add_nonneg (hd0 v) (mul_nonneg he.le (hu0 v))
  -- the smoothed target is a nonnegative real
  have hq : ∀ v, q l (fun v => (ur v : EReal)) v
      = ((cr * (if v = k then 1 else 0) + er * ur v : ℝ) : EReal) := by
    intro v
    unfold q
    rw [hee, hcc]
    by_cases h : v = k
    · rw [if_pos ((hl v).mpr h), if_pos h]; push_cast; rfl
    · rw [if_neg (mt (hl v).mp h), if_neg h]; push_cast; rfl
  -- the divergence: its real part plus the cross term against -log p
  have hR : rowR l (fun v => (ur v : EReal)) Lr
      = ((∑ v, (cr * (if v = k then 1 else 0) + er * ur v)
            * Real.log (cr * (if v = k then 1 else 0) + er * ur v) : ℝ) : EReal)
        + ((cr : EReal) * -Lr k + (er : EReal) * ∑ v, (ur v : EReal) * -Lr v) := by
    unfold rowR
    simp only [hq]
    have term : ∀ v, xlx ((cr * (if v = k then 1 else 0) + er * ur v : ℝ) : EReal)
          - ((cr * (if v = k then 1 else 0) + er * ur v : ℝ) : EReal) * Lr v
        = (((cr * (if v = k then 1 else 0) + er * ur v)
              * Real.log (cr * (if v = k then 1 else 0) + er * ur v) : ℝ) : EReal)
          + ((if v = k then (cr : EReal) * -Lr v else 0) + (er : EReal) * ((ur v : EReal) * -Lr v)) := by
      intro v
      rw [xlx_coe (hq0 v), sub_eq_add_neg, ← mul_neg, coe_add_mul (hd0 v) (mul_nonneg he.le (hu0 v)),
        EReal.coe_mul er, mul_assoc]
      have hδ : ((cr * (if v = k then 1 else 0) : ℝ) : EReal) * -Lr v
          = if v = k then (cr : EReal) * -Lr v else 0 := by
        by_cases h : v = k
        · rw [if_pos h, if_pos h, mul_one]
        · rw [if_neg h, if_neg h, mul_zero, EReal.coe_zero, zero_mul]
      rw [hδ]
    simp only [term]
    rw [Finset.sum_add_distrib, Finset.sum_add_distrib, Finset.sum_ite_eq', if_pos (Finset.mem_univ k),
      ← coe_sum, ← mul_sum_of_nonneg _ _ he.le]
  -- the collapsed form, with the same three parts
  have hK : rowK l (fun v => (ur v : EReal)) Lr
      = ((((cr + er * ur k) * Real.log (cr + er * ur k) + (er * Real.log er) * (1 - ur k))
          + er * (∑ v, ur v * Real.log (ur v) - ur k * Real.log (ur k)) : ℝ) : EReal)
        + (cr : EReal) * -Lr k + (er : EReal) * ∑ v, (ur v : EReal) * -Lr v := by
    unfold rowK comb dot
    simp only [hl]
    rw [Finset.sum_ite_eq', if_pos (Finset.mem_univ k)]
    have hlt : lt (fun v => (ur v : EReal)) k
        = ((((cr + er * ur k) * Real.log (cr + er * ur k) + (er * Real.log er) * (1 - ur k))
          + er * (∑ v, ur v * Real.log (ur v) - ur k * Real.log (ur k)) : ℝ) : EReal) := by
      unfold lt Hu
      simp only [hee, hcc]
      have h1 : (cr : EReal) + (er : EReal) * (ur k : EReal) = ((cr + er * ur k : ℝ) : EReal) := by
        push_cast; rfl
      rw [h1, xlx_coe (add_nonneg hc.le (mul_nonneg he.le (hu0 k))), xlx_coe (hu0 k),
        Ideal.log_coe, if_neg (not_le.mpr he)]
      simp only [fun v => xlx_coe (hu0 v)]
      rw [← coe_sum]
      push_cast
      rfl
    rw [hlt, hee, hcc, sub_eq_add_neg, sub_eq_add_neg, ← mul_neg, ← mul_neg,
      neg_sum _ _ (fun v => mul_coe_ne_top (hL v) (hu0 v))]
    have hs : ∑ v, -(Lr v * (ur v : EReal)) = ∑ v, (ur v : EReal) * -Lr v :=
      Finset.sum_congr rfl fun v _ => by rw [← neg_mul, mul_comm]
    rw [hs]
  rw [hK, hR, real_lt k ur hu0 hu1 he, add_assoc]

/-- A rank-1 index set is its one coordinate's range. -/
def idxEquiv1 {n : Nat} : Fin n ≃ (⟨1, ![n]⟩ : Shape).Idx where
  toFun a := ix1 a
  invFun j := j 0
  left_inv _ := rfl
  right_inv j := (eq_ix1 j).symm

/-- A label in range is the word of exactly one token. -/
theorem label_iff (l : BitVec 32) (hl : 0 ≤ l.toInt ∧ l.toInt < 32000) :
    ∃ k : Fin 32000, ∀ v : Fin 32000, l = BitVec.ofNat 32 v.val ↔ v = k := by
  have hn : l.toNat < 32000 := by
    have := BitVec.toInt_eq_toNat_cond l
    split_ifs at this <;> omega
  refine ⟨⟨l.toNat, hn⟩, fun v => ?_⟩
  have := v.isLt
  constructor
  · intro h
    apply Fin.ext
    simp only
    rw [h, BitVec.toNat_ofNat]
    omega
  · intro h
    subst h
    apply BitVec.eq_of_toNat_eq
    simp only [BitVec.toNat_ofNat]
    omega

/-- The unigram prior of a finite nonnegative histogram of nonzero total is a real probability vector. -/
theorem u_real (A2 : SA2.Idx → EReal) (h2 : ∀ i, A2 i ≠ ⊤ ∧ A2 i ≠ ⊥ ∧ 0 ≤ A2 i) (ht : tot A2 ≠ 0) :
    ∃ ur : Fin 32000 → ℝ, (∀ v, 0 ≤ ur v) ∧ ∑ v, ur v = 1 ∧ u A2 = fun v => (ur v : EReal) := by
  have ha : ∀ i, ((A2 i).toReal : EReal) = A2 i := fun i => EReal.coe_toReal (h2 i).1 (h2 i).2.1
  have ha0 : ∀ i, 0 ≤ (A2 i).toReal := fun i => EReal.toReal_nonneg (h2 i).2.2
  have htot : tot A2 = ((∑ i : SA2.Idx, (A2 i).toReal : ℝ) : EReal) := by
    unfold tot
    rw [coe_sum]
    exact Finset.sum_congr rfl fun i _ => (ha i).symm
  have hS0 : (∑ i : SA2.Idx, (A2 i).toReal) ≠ 0 := by
    intro h
    apply ht
    rw [htot, h, EReal.coe_zero]
  have hSpos : 0 < ∑ i : SA2.Idx, (A2 i).toReal :=
    lt_of_le_of_ne (Finset.sum_nonneg fun i _ => ha0 i) (Ne.symm hS0)
  refine ⟨fun v => (A2 (ix1 v)).toReal / ∑ i : SA2.Idx, (A2 i).toReal,
    fun v => div_nonneg (ha0 _) hSpos.le, ?_, ?_⟩
  · rw [← Finset.sum_div]
    have hre : ∑ v : Fin 32000, (A2 (ix1 v)).toReal = ∑ i : SA2.Idx, (A2 i).toReal :=
      Equiv.sum_comp (idxEquiv1 (n := 32000)) (fun i => (A2 i).toReal)
    rw [hre, div_self hS0]
  · funext v
    unfold u
    rw [htot, Ideal.div_coe hS0]
    show A2 (ix1 v) * ((1 / ∑ i : SA2.Idx, (A2 i).toReal : ℝ) : EReal)
      = (((A2 (ix1 v)).toReal / ∑ i : SA2.Idx, (A2 i).toReal : ℝ) : EReal)
    rw [div_eq_mul_one_div (A2 (ix1 v)).toReal, EReal.coe_mul, ha]

/-- Row s < 1023 of the masked row losses. -/
theorem kerRow_castSucc (A0 : SA0.Idx → BitVec 32) (A1 : SA1.Idx → EReal) (A2 : SA2.Idx → EReal)
    (b : Fin 4) (s : Fin 1023) :
    kerRow A0 A1 A2 b s.castSucc
      = if lab A0 b s = 0#32 then 0 else rowK (lab A0 b s) (u A2) (L A1 b s.castSucc) := by
  unfold kerRow
  rw [dif_pos (show (s.castSucc : Fin 1024).val < 1023 from s.isLt)]
  rfl

/-- The last position of a sequence scores nothing. -/
theorem kerRow_last (A0 : SA0.Idx → BitVec 32) (A1 : SA1.Idx → EReal) (A2 : SA2.Idx → EReal) (b : Fin 4) :
    kerRow A0 A1 A2 b (Fin.last 1023) = 0 := by
  unfold kerRow
  rw [dif_neg (by simp)]

/-- The collapse, summed over all rows: for token ids in range, finite probabilities and a nonnegative histogram of
    nonzero total, the masked row losses in collapsed form sum to the masked divergences. -/
theorem kerSum_eq_refSum (A0 : SA0.Idx → BitVec 32) (A1 : SA1.Idx → EReal) (A2 : SA2.Idx → EReal)
    (h0 : ∀ i, 0 ≤ (A0 i).toInt ∧ (A0 i).toInt < 32000) (h1 : ∀ i, A1 i ≠ ⊤)
    (h2 : ∀ i, A2 i ≠ ⊤ ∧ A2 i ≠ ⊥ ∧ 0 ≤ A2 i) (ht : tot A2 ≠ 0) :
    kerSum A0 A1 A2 = refSum A0 A1 A2 := by
  obtain ⟨ur, hu0, hu1, hu⟩ := u_real A2 h2 ht
  unfold kerSum refSum
  refine Finset.sum_congr rfl fun b _ => ?_
  rw [Fin.sum_univ_castSucc, kerRow_last, add_zero]
  refine Finset.sum_congr rfl fun s _ => ?_
  rw [kerRow_castSucc]
  by_cases hl0 : lab A0 b s = 0#32
  · rw [if_pos hl0]
    unfold msk
    rw [if_pos hl0, mul_zero]
  · rw [if_neg hl0]
    unfold msk
    rw [if_neg hl0, mul_one]
    obtain ⟨k, hk⟩ := label_iff (lab A0 b s) (h0 _)
    rw [hu]
    exact rowK_eq_rowR k ur hu0 hu1 _ (fun v => log_ne_top (h1 _)) _ hk

end KL

end
-- ==== Proof.KLRows.lean ====
import proofs.«427229_j59923383714465_3_alg».proof.Proof.KLMath

/-! The masked row losses as a [4096, 1] array, and its sum. -/

noncomputable section

open scoped BigOperators

namespace KL

open Idealize.ShloMosaic Idealize.ShloMosaic.ValueIdx

/-- The [4096, 1] array of masked row losses: row r is position (r / 1024, r % 1024). -/
def outArr (A0 : SA0.Idx → BitVec 32) (A1 : SA1.Idx → EReal) (A2 : SA2.Idx → EReal) :
    (⟨2, ![4096, 1]⟩ : Shape).Idx → EReal :=
  fun r => kerRow A0 A1 A2 ⟨(r 0).val / 1024, by have := idx2_lt0 r; omega⟩
    ⟨(r 0).val % 1024, Nat.mod_lt _ (by decide)⟩

/-- Row r = 1024 b + s is position (b, s): the 4096 rows are the 4 × 1024 positions. -/
def rowEquiv : Fin 4096 ≃ Fin 4 × Fin 1024 where
  toFun a := (⟨a.val / 1024, by have := a.isLt; omega⟩, ⟨a.val % 1024, Nat.mod_lt _ (by decide)⟩)
  invFun p := ⟨1024 * p.1.val + p.2.val, by have := p.1.isLt; have := p.2.isLt; omega⟩
  left_inv := by
    intro a
    have := a.isLt
    simp only [Fin.ext_iff]
    omega
  right_inv := by
    rintro ⟨b, s⟩
    have := b.isLt; have := s.isLt
    simp only [Prod.mk.injEq, Fin.ext_iff]
    constructor <;> omega

/-- Summing over the rows is summing over the positions. -/
theorem sum_rows {M : Type*} [AddCommMonoid M] (g : Fin 4 → Fin 1024 → M) :
    ∑ a : Fin 4096, g ⟨a.val / 1024, by have := a.isLt; omega⟩ ⟨a.val % 1024, Nat.mod_lt _ (by decide)⟩
      = ∑ b : Fin 4, ∑ s : Fin 1024, g b s :=
  (Equiv.sum_comp rowEquiv (fun p => g p.1 p.2)).trans (Fintype.sum_prod_type _)

/-- The entry of the array at row r. -/
theorem outArr_apply (A0 : SA0.Idx → BitVec 32) (A1 : SA1.Idx → EReal) (A2 : SA2.Idx → EReal) (r : Fin 4096) :
    outArr A0 A1 A2 (ix2 r (0 : Fin 1))
      = kerRow A0 A1 A2 ⟨r.val / 1024, by have := r.isLt; omega⟩ ⟨r.val % 1024, Nat.mod_lt _ (by decide)⟩ :=
  rfl

/-- The array's entries sum to the sum of the masked row losses. -/
theorem sum_outArr (A0 : SA0.Idx → BitVec 32) (A1 : SA1.Idx → EReal) (A2 : SA2.Idx → EReal) :
    (∑ r : (⟨2, ![4096, 1]⟩ : Shape).Idx, outArr A0 A1 A2 r) = kerSum A0 A1 A2 := by
  rw [sum_idx2]
  simp only [Fin.sum_univ_one]
  exact sum_rows (kerRow A0 A1 A2)

end KL

end
-- ==== Proof.KFinal.lean ====
import proofs.«427229_j59923383714465_3_alg».proof.Proof.KAcc
import proofs.«427229_j59923383714465_3_alg».proof.Proof.KHost
import proofs.«427229_j59923383714465_3_alg».proof.Proof.KLMath
import proofs.«427229_j59923383714465_3_alg».proof.Proof.KLRows
import Idealize.ShloMosaic.Lib.Pipeline.Value
import Idealize.ShloMosaic.Lib.StableHlo.Run
import Idealize.ShloMosaic.Lib.Tactic

/-! The scan's run: the [4096, 1] array of masked row losses, summed and divided by the number of scored rows. -/

noncomputable section

open scoped BigOperators

namespace Cert.KernelIdeal.KFinal

open Cert.KernelIdeal Cert.KernelIdeal.Gen Cert.KernelIdeal.KBlocks Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One row: the scan's form of a row is the collapsed row loss -/

/-- The scan's row, at the label word and mask value the scan is handed for position `(b, s)` (zero label and zero
    mask at the last position of a sequence), is the masked row loss of that position. -/
theorem scan_kerRow (A0 : KL.SA0.Idx → BitVec 32) (A1 : KL.SA1.Idx → EReal) (A2 : KL.SA2.Idx → EReal) (b : Fin 4) (s : Fin 1024) :
    KL.scanRow (if h : s.val < 1023 then KL.lab A0 b ⟨s.val, h⟩ else 0#32)
        (if h : s.val < 1023 then KL.msk (KL.lab A0 b ⟨s.val, h⟩) else 0)
        (KL.L A1 b s) (KL.u A2) (KL.lt (KL.u A2))
      = KL.kerRow A0 A1 A2 b s := by
  rw [KL.scanRow_eq]
  unfold KL.kerRow
  by_cases h : s.val < 1023
  · rw [dif_pos h, dif_pos h, dif_pos h]
    unfold KL.msk
    by_cases hl : KL.lab A0 b ⟨s.val, h⟩ = 0#32
    · rw [if_pos hl, if_pos hl, if_pos rfl]
    · rw [if_neg hl, if_neg hl, if_neg one_ne_zero]
      rfl
  · rw [dif_neg h, dif_neg h, dif_neg h, if_pos rfl]

/-- Row `y` of row tile `i`, after the tile's last vocabulary tile, holds the masked row loss of its position. -/
theorem rowOut (c : Dev nD) (i : Fin 2) (y : Fin 2048) :
    (outsAt0 m c (pt i 24).val (pt i 24).isLt).1 (ix2 y 0)
      = KL.kerRow (a0 m c) (a1 m c) (a2 m c) (rowB i y) (rowS i y) := by
  rw [KAcc.out_last]
  simp only [KHost.xblk_apply, KHost.lblk_apply, KHost.mblk_apply, KHost.ublk_apply, KHost.tblk_apply]
  exact scan_kerRow (a0 m c) (a1 m c) (a2 m c) (rowB i y) (rowS i y)

/-! ## The array of row losses -/

/-- A row of the [4096, 1] array of masked row losses (row `r` is position `(r / 1024, r % 1024)`), named by its row
    tile and its place in the tile. -/
theorem outArr_row (A0 : KL.SA0.Idx → BitVec 32) (A1 : KL.SA1.Idx → EReal) (A2 : KL.SA2.Idx → EReal)
    (r : S4096x1.Idx) (i : Fin 2) (y : Fin 2048) (h : (r 0).val = 2048 * i.val + y.val) :
    KL.outArr A0 A1 A2 r = KL.kerRow A0 A1 A2 (rowB i y) (rowS i y) := by
  show KL.kerRow A0 A1 A2 ⟨(r 0).val / 1024, _⟩ ⟨(r 0).val % 1024, _⟩
    = KL.kerRow A0 A1 A2 ⟨(2048 * i.val + y.val) / 1024, _⟩ ⟨(2048 * i.val + y.val) % 1024, _⟩
  simp only [h]

/-- A row tile's output block after its last vocabulary tile, at any index of the block. -/
theorem blockOut (c : Dev nD) (i : Fin 2) (j : S2048x1.Idx) :
    (outsAt0 m c (pt i 24).val (pt i 24).isLt).1 j
      = KL.kerRow (a0 m c) (a1 m c) (a2 m c) (rowB i (j 0)) (rowS i (j 0)) := by
  obtain ⟨y, z, rfl⟩ : ∃ (y : Fin 2048) (z : Fin 1), j = ix2 y z := ⟨j 0, j 1, eq_ix2 j⟩
  obtain rfl : z = 0 := Subsingleton.elim _ _
  exact rowOut m c i y

/-- The output window's block index at a point: the row tile. -/
theorem idx5 : ∀ t : Fin cfg0.N, win0_5.index t (0 : Fin 2) = t.val / 25 ∧ win0_5.index t (1 : Fin 2) = 0 :=
  (by decide +kernel : ∀ t : Fin grid0.N, win0_5.index t (0 : Fin 2) = t.val / 25 ∧ win0_5.index t (1 : Fin 2) = 0)

/-- What a point that writes the output block back writes: the block of the array of row losses. -/
theorem flushed_eq (c : Dev nD) (t : Fin cfg0.N) (hf : (cfg0.win 5).flush t = true) :
    (dats m 0 c).flushed 5 t
      = ((cfg0.win 5).blk t).view.read (Elt Ideal) (KL.outArr (a0 m c) (a1 m c) (a2 m c)) := by
  have hN : cfg0.N = 50 := N_0
  have h24 : t.val % 25 = 24 := (flush0_5 t).mp hf
  have htl := t.isLt
  obtain ⟨i, rfl⟩ : ∃ i : Fin 2, t = pt i 24 :=
    ⟨⟨t.val / 25, by omega⟩, Fin.ext (by rw [pt_val]; show t.val = 25 * (t.val / 25) + 24; omega)⟩
  show (cfg0.win 5).cut (grid0.coords (pt i 24)) ((dats m 0 c).after 5 (pt i 24)) = _
  rw [after0_5]
  funext j
  refine (blockOut m c i j).trans ?_
  show _ = KL.outArr (a0 m c) (a1 m c) (a2 m c) (((cfg0.win 5).blk (pt i 24)).view.emb j)
  have he : (((((cfg0.win 5).blk (pt i 24)).view.emb j) 0 : Fin 4096)).val = 2048 * i.val + (j 0).val := by
    show win0_5.index (pt i 24) (0 : Fin 2) * 2048 + 1 * (j 0).val = _
    rw [(idx5 (pt i 24)).1, pt_val]
    have := i.isLt
    omega
  exact (outArr_row (a0 m c) (a1 m c) (a2 m c) _ i (j 0) he).symm
/-- Every row of the array lies in the block some writing point writes back: row `r` in row tile `r / 2048`. -/
theorem cover (c : Dev nD) (r : ((cfg0.win 5).arr.view.loc (c.tc : Thread nD τ)).2.ty.Idx) :
    ∃ t : Fin cfg0.N, (cfg0.win 5).flush t = true ∧ r ∈ ((cfg0.win 5).blk t).view.set := by
  have h0 : (r 0).val < 4096 := (r 0).isLt
  have h1 : (r 1).val < 1 := (r 1).isLt
  obtain ⟨q, hq⟩ : ∃ q : Fin 2, q.val = (r 0).val / 2048 := ⟨⟨(r 0).val / 2048, by omega⟩, rfl⟩
  refine ⟨pt q 24, (flush0_5 _).mpr (by rw [pt_val]; show (25 * q.val + 24) % 25 = 24; omega), ?_⟩
  show r ∈ ((View.whole main_v58).slice (win0_5.rect (pt q 24))).set
  rw [View.set_slice_whole, Rect.mem_set_unit]
  intro a
  match a with
  | ⟨0, _⟩ =>
    show win0_5.index (pt q 24) (0 : Fin 2) * 2048 ≤ (r 0).val
      ∧ (r 0).val < win0_5.index (pt q 24) (0 : Fin 2) * 2048 + 2048
    rw [(idx5 _).1, pt_val]
    show (25 * q.val + 24) / 25 * 2048 ≤ (r 0).val ∧ (r 0).val < (25 * q.val + 24) / 25 * 2048 + 2048
    omega
  | ⟨1, _⟩ =>
    show win0_5.index (pt q 24) (1 : Fin 2) * 1 ≤ (r 1).val
      ∧ (r 1).val < win0_5.index (pt q 24) (1 : Fin 2) * 1 + 1
    rw [(idx5 _).2]
    omega

/-- After the scan the output array holds the array of row losses. -/
theorem final5 (c : Dev nD) : (dats m 0 c).arrAt 5 cfg0.N = KL.outArr (a0 m c) (a1 m c) (a2 m c) :=
  (dats m 0 c).arrAt_eq_of_cover 5 (KL.outArr (a0 m c) (a1 m c) (a2 m c)) (flushed_eq m c) (cover c)

/-! ## The lines after the scan: the sum of the array, divided by the number of scored rows -/

/-- The program's result: the lines after the scan sum the output array from zero and divide by 4092. -/
theorem tail_v60 (c : Dev nD) :
    Pipeline.afterTail₀ cfgs (dats m) 0 (V0 m) [hostOps1] c main_v60 = (fun _ => KL.kerRes (a0 m c) (a1 m c) (a2 m c)) := by
  unfold Pipeline.afterTail₀
  show StableHlo.after hostOps1 _ (Proc.devRef .tc main_v60) = _
  after_results
  have hA : Pipeline.withArrays (cfgs 0).spec c (V0 m c) (fun w => (dats m 0 c).arrAt w (cfgs 0).N) (Proc.devRef .tc main_v58)
      = KL.outArr (a0 m c) (a1 m c) (a2 m c) := (Pipeline.withArrays_arr spec0 launch0.win.arr_inj c _ _ 5).trans (final5 m c)
  rw [hA]
  funext z
  show Ideal.div (Host.reduceAdd (F := Ideal) (KL.outArr (a0 m c) (a1 m c) (a2 m c)) (constant S_ .f32 0x00000000#32)
      reducesTo_S4096x1_S_d0_1 h_S_ z) (Ideal.ofBits .f32 0x457FC000#32) = _
  have hs : Host.reduceAdd (F := Ideal) (KL.outArr (a0 m c) (a1 m c) (a2 m c)) (constant S_ .f32 0x00000000#32)
      reducesTo_S4096x1_S_d0_1 h_S_ z = KL.kerSum (a0 m c) (a1 m c) (a2 m c) := by
    simp only [Host.reduceAdd, Ideal.hostReduceAdd_def]
    refine (Ideal.hostReduceAdd_total reducesTo_S4096x1_S_d0_1 (fun b => b.elim0) (KL.outArr (a0 m c) (a1 m c) (a2 m c)) _ z).trans ?_
    show Ideal.ofBits .f32 0x00000000#32 + _ = _
    rw [Ideal.ofBits_zero_f32, zero_add]
    exact KL.sum_outArr (a0 m c) (a1 m c) (a2 m c)
  rw [hs]
  rfl

theorem run : θ_run defs (onTc (τ := τ) (main (F := Ideal))) ⟨m, fun _ => 0, ρ⟩ (fun r => ∀ c : Dev nD,
      r.2.mem ((c.tc : Thread nD τ).loc main_v60) = (fun _ => KL.kerRes (a0 m c) (a1 m c) (a2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun r h c =>
    ⟨((h c).2 main_v60 (Pipeline.mem_restRefs_of main_v60 (by decide) (by decide))).trans (tail_v60 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KFinal

end
-- ==== Proof.RefValue.lean ====
import proofs.«427229_j59923383714465_3_alg».proof.Proof.Gen.ReferenceIdeal.Read
import proofs.«427229_j59923383714465_3_alg».proof.Proof.KLSpec

/-! The reference program's result, read one operation at a time, is the masked divergence averaged over the 4092 scored rows. -/

noncomputable section

open scoped BigOperators

namespace Cert.ReferenceIdeal.RefValue

open Cert.ReferenceIdeal Cert.ReferenceIdeal.Gen Idealize.ShloMosaic Idealize.ShloMosaic.ValueIdx

/-! ## Words: a one-bit comparison converted to a float, and the guarded `x log x` -/

/-- The one-bit word of an equality test, converted to a float, is the indicator of the equality. -/
theorem uitofp_cmpi_eq (l k : BitVec 32) :
    (FloatOps.uitofp (F := Ideal) .f32 (IntOp.cmpi .eq l k) : EReal) = if l = k then 1 else 0 := by
  by_cases h : l = k
  · subst h
    rw [if_pos rfl]
    show (((BitVec.ofBool (l == l)).toNat : ℝ) : EReal) = 1
    simp
  · rw [if_neg h]
    show (((BitVec.ofBool (l == k)).toNat : ℝ) : EReal) = 0
    have : (l == k) = false := by simpa using h
    rw [this]
    simp

/-- The one-bit word of an inequality test against zero, converted to a float, is the mask of a nonzero label. -/
theorem uitofp_cmpi_ne_zero (l : BitVec 32) :
    (FloatOps.uitofp (F := Ideal) .f32 (IntOp.cmpi .ne l 0#32) : EReal) = KL.msk l := by
  unfold KL.msk
  by_cases h : l = 0#32
  · subst h
    rw [if_pos rfl]
    show (((BitVec.ofBool (0#32 != 0#32)).toNat : ℝ) : EReal) = 0
    simp
  · rw [if_neg h]
    show (((BitVec.ofBool (l != 0#32)).toNat : ℝ) : EReal) = 1
    have : (l != 0#32) = true := by simpa using h
    rw [this]
    simp

/-- `xlogy q q` as the reference spells it — select on `q ≠ 0 ∨ q ≠ q` between `q · log q` and zero — is `x log x`, zero at zero. -/
theorem xlogy_eq (q : EReal) :
    Scalar.select (IntOp.ori (Ideal.cmp .une q (Ideal.ofBits .f32 0x00000000#32)) (Ideal.cmp .une q q))
      (q * Ideal.log q) (Ideal.ofBits .f32 0x00000000#32) = KL.xlx q := by
  rw [Ideal.ofBits_zero_f32]
  unfold KL.xlx
  by_cases h : q = 0
  · subst h
    rw [if_pos rfl]
    show Scalar.select (IntOp.ori (BitVec.ofBool (decide ((0 : EReal) ≠ 0))) (BitVec.ofBool (decide ((0 : EReal) ≠ 0)))) _ _ = _
    simp [IntOp.ori, Scalar.select]
  · rw [if_neg h]
    show Scalar.select (IntOp.ori (BitVec.ofBool (decide (q ≠ 0))) (BitVec.ofBool (decide (q ≠ q)))) _ _ = _
    simp [IntOp.ori, Scalar.select, h]

/-! ## The prior -/

/-- The histogram's total. -/
theorem tot_eq (x2 : FVec Ideal S32000 .f32) (i : S_.Idx) :
    Read.val_main_v0 (F := Ideal) x2 i = KL.tot x2 := by
  rw [Read.val_main_v0_apply, Read.val_main_cst_apply, Ideal.ofBits_def, Ideal.ofBits_zero_f32, zero_add]
  rfl

/-- The unigram distribution. -/
theorem u_eq (x2 : FVec Ideal S32000 .f32) (v : Fin 32000) :
    Read.val_main_v2 (F := Ideal) x2 (ix1 v) = KL.u x2 v := by
  rw [Read.val_main_v2_apply, Read.val_main_v1_apply, tot_eq, Ideal.hostDivf_def]
  rfl

/-! ## The smoothed target -/

theorem idx_lab (b : Fin 4) (s : Fin 1023) (v : Fin 32000) :
    Read.idx_main_v3 (Read.idx_main_call0_v0 (Read.idx_main_call0_v2 (ix3 b s v))) = ix2 b s.succ :=
  funext fun a => Fin.ext (by
    match a with
    | ⟨0, _⟩ => rfl
    | ⟨1, _⟩ => show 1 + s.val = s.val + 1; omega)

theorem idx_iota (b : Fin 4) (s : Fin 1023) (v : Fin 32000) :
    ((Read.idx_main_call0_v3 (ix3 b s v)) 2).val = v.val := rfl

theorem idx_prior (b : Fin 4) (s : Fin 1023) (v : Fin 32000) :
    Read.idx_main_v9 (Read.idx_main_v10 (ix3 b s v)) = ix1 v :=
  funext fun a => Fin.ext (by match a with | ⟨0, _⟩ => rfl)

/-- The one-hot entry at `(b, s, v)`. -/
theorem onehot_eq (x0 : IVec S4x1024 32) (b : Fin 4) (s : Fin 1023) (v : Fin 32000) :
    Read.val_main_v4 (F := Ideal) x0 (ix3 b s v) = if KL.lab x0 b s = BitVec.ofNat 32 v.val then 1 else 0 := by
  rw [Read.val_main_v4_apply, Read.val_main_call0_v4_apply, Read.val_main_call0_v2_apply, Read.val_main_call0_v0_apply,
    Read.val_main_v3_apply, Read.val_main_call0_v3_apply, Read.val_main_call0_v1_apply, idx_lab, idx_iota, uitofp_cmpi_eq]
  rfl

/-- The smoothed target at `(b, s, v)`. -/
theorem q_eq (x0 : IVec S4x1024 32) (x2 : FVec Ideal S32000 .f32) (b : Fin 4) (s : Fin 1023) (v : Fin 32000) :
    Read.val_main_v11 (F := Ideal) x0 x2 (ix3 b s v) = KL.q (KL.lab x0 b s) (KL.u x2) v := by
  rw [Read.val_main_v11_apply, Read.val_main_v6_apply, Read.val_main_v5_apply, Read.val_main_cst_0_apply, onehot_eq,
    Read.val_main_v10_apply, Read.val_main_v9_apply, Read.val_main_v8_apply, Read.val_main_v7_apply,
    Read.val_main_cst_1_apply, idx_prior, u_eq]
  rfl

/-! ## One row's divergence -/

theorem idx_prob (b : Fin 4) (s : Fin 1023) (v : Fin 32000) :
    Read.idx_main_v12 (ix3 b s v) = ix3 b s.castSucc v :=
  funext fun a => Fin.ext (by match a with | ⟨0, _⟩ => rfl | ⟨1, _⟩ => rfl | ⟨2, _⟩ => rfl)

theorem idx_row (b : Fin 4) (s : Fin 1023) (k : Fin 32000) :
    Read.idx_main_v24 (ix2 b s) k = ix3 b s k :=
  funext fun a => Fin.ext (by match a with | ⟨0, _⟩ => rfl | ⟨1, _⟩ => rfl | ⟨2, _⟩ => rfl)

theorem idx_lab2 (b : Fin 4) (s : Fin 1023) :
    Read.idx_main_v3 (ix2 b s) = ix2 b s.succ :=
  funext fun a => Fin.ext (by
    match a with
    | ⟨0, _⟩ => rfl
    | ⟨1, _⟩ => show 1 + s.val = s.val + 1; omega)

/-- The summand at `(b, s, v)`: `x log x` of the target minus the target times the log-probability. -/
theorem term_eq (x0 : IVec S4x1024 32) (x1 : FVec Ideal S4x1024x32000 .f32) (x2 : FVec Ideal S32000 .f32)
    (b : Fin 4) (s : Fin 1023) (v : Fin 32000) :
    Read.val_main_v23 (F := Ideal) x0 x1 x2 (ix3 b s v)
      = KL.xlx (KL.q (KL.lab x0 b s) (KL.u x2) v) - KL.q (KL.lab x0 b s) (KL.u x2) v * KL.L x1 b s.castSucc v := by
  rw [Read.val_main_v23_apply, Read.val_main_v20_apply, Read.val_main_v16_apply, Read.val_main_v14_apply,
    Read.val_main_v15_apply, Read.val_main_v18_apply, Read.val_main_v17_apply, Read.val_main_v19_apply,
    Read.val_main_cst_3_apply, Read.val_main_v13_apply, Read.val_main_cst_2_apply,
    Read.val_main_v22_apply, Read.val_main_v21_apply, Read.val_main_v12_apply, idx_prob, q_eq]
  simp only [Ideal.subf_def, Ideal.mulf_def, Ideal.hostUnary_log_def, Ideal.ofBits_def]
  rw [← xlogy_eq]
  rfl

/-- One row's divergence, summed over the vocabulary. -/
theorem row_eq (x0 : IVec S4x1024 32) (x1 : FVec Ideal S4x1024x32000 .f32) (x2 : FVec Ideal S32000 .f32)
    (b : Fin 4) (s : Fin 1023) :
    Read.val_main_v24 (F := Ideal) x0 x1 x2 (ix2 b s)
      = KL.rowR (KL.lab x0 b s) (KL.u x2) (KL.L x1 b s.castSucc) := by
  rw [Read.val_main_v24_apply, Read.val_main_cst_4_apply, Ideal.ofBits_def, Ideal.ofBits_zero_f32, zero_add]
  unfold KL.rowR
  exact Finset.sum_congr rfl fun k _ => by rw [idx_row, term_eq]

/-- The row mask. -/
theorem mask_eq (x0 : IVec S4x1024 32) (b : Fin 4) (s : Fin 1023) :
    Read.val_main_v27 (F := Ideal) x0 (ix2 b s) = KL.msk (KL.lab x0 b s) := by
  rw [Read.val_main_v27_apply, Read.val_main_v26_apply, Read.val_main_v3_apply, Read.val_main_v25_apply,
    Read.val_main_c_apply, idx_lab2, uitofp_cmpi_ne_zero]
  rfl

/-! ## The mean over the scored rows -/

theorem sum_eq (x0 : IVec S4x1024 32) (x1 : FVec Ideal S4x1024x32000 .f32) (x2 : FVec Ideal S32000 .f32) (i : S_.Idx) :
    Read.val_main_v29 (F := Ideal) x0 x1 x2 i = KL.refSum x0 x1 x2 := by
  rw [Read.val_main_v29_apply, Read.val_main_cst_5_apply, Ideal.ofBits_def, Ideal.ofBits_zero_f32, zero_add, sum_idx2]
  unfold KL.refSum
  refine Finset.sum_congr rfl fun b _ => Finset.sum_congr rfl fun s _ => ?_
  rw [Read.val_main_v28_apply, row_eq, mask_eq, Ideal.mulf_def]

theorem result_eq (x0 : IVec S4x1024 32) (x1 : FVec Ideal S4x1024x32000 .f32) (x2 : FVec Ideal S32000 .f32) (i : S_.Idx) :
    Cert.ReferenceIdeal.Read.val_main_v30 (F := Ideal) x0 x1 x2 i = KL.refRes x0 x1 x2 := by
  rw [Read.val_main_v30_apply, sum_eq, Read.val_main_cst_6_apply, Ideal.hostDivf_def, Ideal.ofBits_def]
  rfl

end Cert.ReferenceIdeal.RefValue

end
-- ==== Proof.PreFacts.lean ====
import proofs.«427229_j59923383714465_3_alg».proof.Pre_finite_inputs
import proofs.«427229_j59923383714465_3_alg».proof.Proof.Gen.Pre_finite_inputs
import proofs.«427229_j59923383714465_3_alg».proof.Proof.KLSpec
import Idealize.ShloMosaic.Lib.ReduceAll
import Idealize.ShloMosaic.Lib.StableHlo.Predicate
import Idealize.ShloMosaic.PureOps.Ideal.Laws

/-! What the precondition says of the three argument arrays, read at the extended reals.

The precondition is a conjunction of six tests: every `|A1|` and every `|A2|` is below `+∞`, every token id is at
least 0 and below 32000 as a signed word, every histogram entry is at least 0, and the histogram's sum is not 0.
Each "every" is a reduction by `and` over all axes that came out 1, so each of its elements is 1; an element being 1
is the comparison it prints, at the extended reals the order's own (`+∞` is `⊤`, the zero word is `0`), and the
sum over all axes starting from the zero word is the plain sum. -/

noncomputable section

namespace Cert.PreFacts

open Idealize.ShloMosaic Idealize.ShloMosaic.ValueIdx Cert.Pre_finite_inputs

/-- A rank-0 array has one index. -/
instance : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- `max x (-x) < ⊤` holds of the reals only: `max ⊤ ⊥ = ⊤` both ways round. -/
theorem abs_lt_top (x : EReal) (h : Ideal.cmp .olt (max x (-x)) (Ideal.ofBits .f32 0x7F800000#32) = 1#1) :
    x ≠ ⊤ ∧ x ≠ ⊥ := by
  rw [inf_word] at h
  simp only [Ideal.cmp, StableHlo.Predicate.ofBool_eq_one_iff, decide_eq_true_eq] at h
  induction x using EReal.rec with
  | bot => simp at h
  | top => simp at h
  | coe r => exact ⟨EReal.coe_ne_top r, EReal.coe_ne_bot r⟩

/-- A 32-bit word that is at least 0 and below 32000, both read signed. -/
theorem word_range (w : BitVec 32) (h0 : IntOp.cmpi .sge w 0#32 = 1#1) (h1 : IntOp.cmpi .slt w 32000#32 = 1#1) :
    0 ≤ w.toInt ∧ w.toInt < 32000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have k : (32000#32 : BitVec 32).toInt = 32000 := by decide
  rw [z] at h0; rw [k] at h1
  exact ⟨h0, h1⟩

/-- `x ≥ 0` against the zero word. -/
theorem ge_zero (x : EReal) (h : Ideal.cmp .oge x (Ideal.ofBits .f32 0x00000000#32) = 1#1) : 0 ≤ x := by
  rw [Ideal.ofBits_zero_f32] at h
  simpa only [Ideal.cmp, StableHlo.Predicate.ofBool_eq_one_iff, decide_eq_true_eq] using h

/-- `x ≠ 0` against the zero word. -/
theorem ne_zero (x : EReal) (h : Ideal.cmp .une x (Ideal.ofBits .f32 0x00000000#32) = 1#1) : x ≠ 0 := by
  rw [Ideal.ofBits_zero_f32] at h
  simpa only [Ideal.cmp, StableHlo.Predicate.ofBool_eq_one_iff, decide_eq_true_eq] using h

/-- Token ids lie in `[0, 32000)`, probabilities and histogram entries are finite, histogram entries are nonnegative
    and their total is not zero. -/
theorem of_pre [Cert.Pre_finite_inputs.Facts] (A0 : IVec S4x1024 32) (A1 : FVec Ideal S4x1024x32000 .f32) (A2 : FVec Ideal S32000 .f32)
    (h : Cert.Pre_finite_inputs.fn (F := Ideal) A0 A1 A2 = fun _ => 1#1) :
    (∀ i, 0 ≤ (A0 i).toInt ∧ (A0 i).toInt < 32000) ∧ (∀ i, A1 i ≠ ⊤ ∧ A1 i ≠ ⊥)
      ∧ (∀ i, A2 i ≠ ⊤ ∧ A2 i ≠ ⊥ ∧ 0 ≤ A2 i) ∧ KL.tot A2 ≠ 0 := by
  -- the six conjuncts, each a word equal to 1
  have e := congrFun h ValueIdx.ix0
  dsimp only [Cert.Pre_finite_inputs.fn, Cert.Pre_finite_inputs.fn_part1] at e
  simp only [andi, IntOp.andi_eq_one] at e
  obtain ⟨⟨⟨⟨⟨h1, h2⟩, h3⟩, h4⟩, h5⟩, h6⟩ := e
  -- each "for all" at every element
  have a1 := Host.reduce_andi_all _ _ _ _ _ h1
  have a2 := Host.reduce_andi_all _ _ _ _ _ h2
  have a3 := Host.reduce_andi_all _ _ _ _ _ h3
  have a4 := Host.reduce_andi_all _ _ _ _ _ h4
  have a5 := Host.reduce_andi_all _ _ _ _ _ h5
  refine ⟨fun i => ?_, fun i => ?_, fun i => ?_, ?_⟩
  · have b3 := a3 i
    have b4 := a4 i
    simp only [cmpi, broadcastInDim, constantI] at b3 b4
    exact word_range _ b3 b4
  · have b1 := a1 i
    simp only [cmpf, Host.absf, broadcastInDim, constant] at b1
    exact abs_lt_top _ b1
  · have b2 := a2 i
    have b5 := a5 i
    simp only [cmpf, Host.absf, broadcastInDim, constant] at b2 b5
    exact ⟨(abs_lt_top _ b2).1, (abs_lt_top _ b2).2, ge_zero _ b5⟩
  · simp only [cmpf, constant] at h6
    -- the sum over the one axis, started at the zero word, is the histogram's total
    have hs : Host.reduceAdd (F := Ideal) A2 (constant S_ .f32 0x00000000#32) Facts.reducesTo_S32000_S_d0 Facts.h_S_ ix0
        = KL.tot A2 := by
      simp only [Host.reduceAdd, Ideal.hostReduceAdd_def]
      refine (Ideal.hostReduceAdd_total Facts.reducesTo_S32000_S_d0 (fun b => b.elim0) A2 _ ix0).trans ?_
      show Ideal.ofBits .f32 0x00000000#32 + _ = _
      rw [Ideal.ofBits_zero_f32, zero_add]; rfl
    rw [hs] at h6
    exact ne_zero _ h6

end Cert.PreFacts

end
-- ==== Proof.lean ====
/-
  Label-smoothed KL divergence against a unigram prior, computed two ways.

  The reference forms, for every scored position, the smoothed target `q v = c·[v = label] + e·u v` over the
  32000 tokens (`u` the histogram normalised to a distribution, `e`, `c` the two smoothing weights) and sums
  `q v log q v − q v log p v` over the vocabulary; padding rows (label 0) are masked and the total is divided by the
  4092 scored rows.  The kernel never forms `q`: since `u` sums to one, `∑ v, q v log q v` depends on the label alone
  (a table over the vocabulary) and `∑ v, q v log p v = c·log p_label + e·∑ v, u v log p v`, so one tiled scan of the
  probabilities with two accumulators gives every row's loss.  Over the extended reals the two agree whenever the
  token ids are in range, the histogram is nonnegative with a nonzero total, and the inputs are finite; a probability
  that is zero or negative makes both sides +∞ together, so nothing is asked of the probabilities' sign.

  The modules: `KLSpec` states both forms as plain sums over the argument arrays; `KLMath` proves them equal and
  re-indexes the tiled scan; `RefValue` reads the reference program as the first form; `KPieces`, `KStepIdx`, `KAcc`
  read the scan's accumulators and output block, `KHost`, `KHostLt` the blocks it is handed, `KFinal` its run as the
  second form; `PreFacts` reads the precondition.
-/
import proofs.«427229_j59923383714465_3_alg».proof.Defs
import proofs.«427229_j59923383714465_3_alg».proof.Proof.Gen.Kernel
import proofs.«427229_j59923383714465_3_alg».proof.Proof.Gen.Kernel.Skeleton
import proofs.«427229_j59923383714465_3_alg».proof.Proof.Gen.Kernel.Launch
import proofs.«427229_j59923383714465_3_alg».proof.Proof.Gen.Kernel.Points
import proofs.«427229_j59923383714465_3_alg».proof.Proof.Gen.Kernel.Frame
import proofs.«427229_j59923383714465_3_alg».proof.Proof.Gen.KernelIdeal
import proofs.«427229_j59923383714465_3_alg».proof.Proof.Gen.KernelIdeal.Skeleton
import proofs.«427229_j59923383714465_3_alg».proof.Proof.Gen.KernelIdeal.Launch
import proofs.«427229_j59923383714465_3_alg».proof.Proof.Gen.KernelIdeal.Points
import proofs.«427229_j59923383714465_3_alg».proof.Proof.Gen.KernelIdeal.Frame
import proofs.«427229_j59923383714465_3_alg».proof.Proof.Gen.ReferenceIdeal
import proofs.«427229_j59923383714465_3_alg».proof.Proof.Gen.Pre_finite_inputs
import proofs.«427229_j59923383714465_3_alg».proof.Proof.Gen.ReferenceIdeal.Read
import proofs.«427229_j59923383714465_3_alg».proof.Proof.KFinal
import proofs.«427229_j59923383714465_3_alg».proof.Proof.RefValue
import proofs.«427229_j59923383714465_3_alg».proof.Proof.PreFacts
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- Both programs run and end at one value: the collapsed form `KL.kerRes` of the argument arrays. The kernel's run
    ends there; the reference's ends at the direct form `KL.refRes`, and the two forms agree on the precondition's
    domain. -/
theorem algebraic : Cert.algebraic_KernelIdeal_ReferenceIdeal := by
  intro m ρ m' ρ' hpre hagree
  refine ⟨fun c => fun _ => KL.kerRes (Cert.KernelIdeal.KBlocks.a0 m c) (Cert.KernelIdeal.KBlocks.a1 m c) (Cert.KernelIdeal.KBlocks.a2 m c),
    Cert.KernelIdeal.KFinal.run m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v30_eq]
  funext i
  rw [Cert.ReferenceIdeal.RefValue.result_eq, (hagree c).1, (hagree c).2.1, (hagree c).2.2]
  obtain ⟨h0, h1, h2, ht⟩ := Cert.PreFacts.of_pre _ _ _ (hpre c)
  show KL.refRes _ _ _ = KL.kerRes _ _ _
  unfold KL.refRes KL.kerRes
  rw [KL.kerSum_eq_refSum _ _ _ h0 (fun i => (h1 i).1) h2 ht]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
